-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S2048x512 .f32 .bf16
  ∧ IdealRules.truncf_extf.Statement Cert.KernelIdeal.S2048x512 .f32 .bf16
  ∧ IdealRules.truncf_extf.Statement Cert.KernelIdeal.S16x512 .f32 .bf16
  ∧ IdealRules.truncf_extf.Statement Cert.KernelIdeal.S16x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S1 : Shape := ⟨1, ![1]⟩
abbrev S1x512 : Shape := ⟨2, ![1, 512]⟩
abbrev S16x512 : Shape := ⟨2, ![16, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1 : S_.BroadcastsInDim S1 (![] : Fin 0 → Fin S1.rank)
  reducesTo_S1_S_d0 : S1.ReducesTo [0] S_
  bcast_S_S1x512 : S_.BroadcastsInDim S1x512 (![] : Fin 0 → Fin S1x512.rank)
  reducesTo_S1x512_S_d0_1 : S1x512.ReducesTo [0, 1] S_
  bcast_S_S16x512 : S_.BroadcastsInDim S16x512 (![] : Fin 0 → Fin S16x512.rank)
  reducesTo_S16x512_S_d0_1 : S16x512.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg1 : IVec S65536 32) (main_arg5 : FVec F S16x512 .f32) (main_v13 : IVec S_ 1) (main_v16 : IVec S16x512 1) : IVec S_ 1 :=
  let main_c_5 : IVec S_ 1 := constantI S_ 1 1#1
  let main_v17 : IVec S_ 1 := (fun x v => Host.reduce IntOp.andi x v reducesTo_S16x512_S_d0_1 h_S_) main_v16 main_c_5
  let main_v18 : IVec S_ 1 := andi main_v13 main_v17
  let main_v19 : FVec F S16x512 .f32 := Host.absf main_arg5
  let main_cst_6 : FVec F S_ .f32 := constant S_ .f32 0x7F800000#32
  let main_v20 : FVec F S16x512 .f32 := broadcastInDim S16x512 ![] bcast_S_S16x512 main_cst_6
  let main_v21 : IVec S16x512 1 := cmpf .olt main_v19 main_v20
  let main_c_7 : IVec S_ 1 := constantI S_ 1 1#1
  let main_v22 : IVec S_ 1 := (fun x v => Host.reduce IntOp.andi x v reducesTo_S16x512_S_d0_1 h_S_) main_v21 main_c_7
  let main_v23 : IVec S_ 1 := andi main_v18 main_v22
  let main_c_8 : IVec S_ 32 := constantI S_ 32 0#32
  let main_v24 : IVec S65536 32 := broadcastInDim S65536 ![] bcast_S_S65536 main_c_8
  let main_v25 : IVec S65536 1 := cmpi .sge main_arg1 main_v24
  let main_c_9 : IVec S_ 32 := constantI S_ 32 16#32
  let main_v26 : IVec S65536 32 := broadcastInDim S65536 ![] bcast_S_S65536 main_c_9
  let main_v27 : IVec S65536 1 := cmpi .slt main_arg1 main_v26
  let main_v28 : IVec S65536 1 := andi main_v25 main_v27
  let main_c_10 : IVec S_ 1 := constantI S_ 1 1#1
  let main_v29 : IVec S_ 1 := (fun x v => Host.reduce IntOp.andi x v reducesTo_S65536_S_d0 h_S_) main_v28 main_c_10
  let main_v30 : IVec S_ 1 := andi main_v23 main_v29
  main_v30

def fn {F : FTy → Type} [FloatOps F] (main_arg0 : FVec F S65536x512 .f32) (main_arg1 : IVec S65536 32) (main_arg2 : FVec F S1 .f32) (main_arg3 : FVec F S1x512 .f32) (main_arg4 : FVec F S16x512 .f32) (main_arg5 : FVec F S16x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S16x512 .f32 := Host.absf main_arg4
  let main_cst_4 : FVec F S_ .f32 := constant S_ .f32 0x7F800000#32
  let main_v15 : FVec F S16x512 .f32 := broadcastInDim S16x512 ![] bcast_S_S16x512 main_cst_4
  let main_v16 : IVec S16x512 1 := cmpf .olt main_v14 main_v15
  fn_part1 (F := F) main_arg1 main_arg5 main_v13 main_v16
-- ==== Kernel.lean ====
abbrev S65536x512 : Shape := ⟨2, ![65536, 512]⟩
abbrev S65536 : Shape := ⟨1, ![65536]⟩
abbrev S1 : Shape := ⟨1, ![1]⟩
abbrev S1x512 : Shape := ⟨2, ![1, 512]⟩
abbrev S16x512 : Shape := ⟨2, ![16, 512]⟩
abbrev S_ : Shape := ⟨0, ![]⟩
abbrev S1x65536 : Shape := ⟨2, ![1, 65536]⟩
abbrev S2x16x512 : Shape := ⟨3, ![2, 16, 512]⟩
abbrev S2x16x1 : Shape := ⟨3, ![2, 16, 1]⟩
abbrev S2048x512 : Shape := ⟨2, ![2048, 512]⟩
abbrev S1x2048 : Shape := ⟨2, ![1, 2048]⟩
abbrev S1x16x512 : Shape := ⟨3, ![1, 16, 512]⟩
abbrev S1x16x1 : Shape := ⟨3, ![1, 16, 1]⟩
abbrev S16x1 : Shape := ⟨2, ![16, 1]⟩
abbrev S16x2048 : Shape := ⟨2, ![16, 2048]⟩
abbrev S16 : Shape := ⟨1, ![16]⟩

abbrev nBuf : Space → Nat
  | .hbm => 42
  | .vmem => 18
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1, .f32⟩
  | .hbm, ⟨3, _⟩ => ⟨S1x512, .f32⟩
  | .hbm, ⟨4, _⟩ => ⟨S16x512, .f32⟩
  | .hbm, ⟨5, _⟩ => ⟨S16x512, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S1x65536, .i32⟩
  | .hbm, ⟨15, _⟩ => ⟨S2x16x512, .f32⟩
  | .hbm, ⟨16, _⟩ => ⟨S2x16x512, .f32⟩
  | .hbm, ⟨17, _⟩ => ⟨S2x16x1, .f32⟩
  | .hbm, ⟨18, _⟩ => ⟨S_, .f32⟩
  | .hbm, ⟨19, _⟩ => ⟨S16x512, .f32⟩
  | .hbm, ⟨20, _⟩ => ⟨S_, .f32⟩
  | .hbm, ⟨21, _⟩ => ⟨S16x512, .f32⟩
  | .hbm, ⟨22, _⟩ => ⟨S_, .f32⟩
  | .hbm, ⟨23, _⟩ => ⟨S16x1, .f32⟩
  | .hbm, ⟨24, _⟩ => ⟨S_, .f32⟩
  | .hbm, ⟨25, _⟩ => ⟨S16x1, .f32⟩
  | .hbm, ⟨26, _⟩ => ⟨S16x1, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S16x512, .f32⟩
  | .hbm, ⟨31, _⟩ => ⟨S16x512, .f32⟩
  | .hbm, ⟨32, _⟩ => ⟨S16x512, .f32⟩
  | .hbm, ⟨33, _⟩ => ⟨S_, .f32⟩
  | .hbm, ⟨34, _⟩ => ⟨S16x512, .f32⟩
  | .hbm, ⟨35, _⟩ => ⟨S16x512, .f32⟩
  | .hbm, ⟨36, _⟩ => ⟨S16x512, .f32⟩
  | .hbm, ⟨37, _⟩ => ⟨S16x512, .f32⟩
  | .hbm, ⟨38, _⟩ => ⟨S16x512, .f32⟩
  | .hbm, ⟨39, _⟩ => ⟨S16x512, .f32⟩
  | .hbm, ⟨40, _⟩ => ⟨S16x512, .f32⟩
  | .hbm, ⟨41, _⟩ => ⟨S65536x512, .f32⟩
  | .local _ .vmem, ⟨0, _⟩ => ⟨S2048x512, .f32⟩
  | .local _ .vmem, ⟨1, _⟩ => ⟨S2048x512, .f32⟩
  | .local _ .vmem, ⟨2, _⟩ => ⟨S1x2048, .i32⟩
  | .local _ .vmem, ⟨3, _⟩ => ⟨S1x2048, .i32⟩
  | .local _ .vmem, ⟨4, _⟩ => ⟨S1x16x512, .f32⟩
  | .local _ .vmem, ⟨5, _⟩ => ⟨S1x16x512, .f32⟩
  | .local _ .vmem, ⟨6, _⟩ => ⟨S1x16x512, .f32⟩
  | .local _ .vmem, ⟨7, _⟩ => ⟨S1x16x512, .f32⟩
  | .local _ .vmem, ⟨8, _⟩ => ⟨S1x16x1, .f32⟩
  | .local _ .vmem, ⟨9, _⟩ => ⟨S1x16x1, .f32⟩
  | .local _ .vmem, ⟨10, _⟩ => ⟨S2048x512, .f32⟩
  | .local _ .vmem, ⟨11, _⟩ => ⟨S2048x512, .f32⟩
  | .local _ .vmem, ⟨12, _⟩ => ⟨S1x2048, .i32⟩
  | .local _ .vmem, ⟨13, _⟩ => ⟨S1x2048, .i32⟩
  | .local _ .vmem, ⟨14, _⟩ => ⟨S16x512, .f32⟩
  | .local _ .vmem, ⟨15, _⟩ => ⟨S16x512, .f32⟩
  | .local _ .vmem, ⟨16, _⟩ => ⟨S2048x512, .f32⟩
  | .local _ .vmem, ⟨17, _⟩ => ⟨S2048x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_cst : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_cst_3 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S65536 : S_.BroadcastsInDim S65536 (![] : Fin 0 → Fin S65536.rank)
  shapeCasts_S65536_S1x65536 : S65536.ShapeCasts S1x65536
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S1x16x512 : S16x512.ShapeCasts S1x16x512
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S16x2048_d0_w32 : S16x2048.Iotas .tc 32 [0]
  broadcasts_S1x2048_S16x2048 : S1x2048.Broadcasts S16x2048
  natLt_1_32 : 1 < 32
  bitsLt_bf16_f32 : FTy.bits .bf16 < FTy.bits .f32
  reduces_S16x2048_S16 : S16x2048.Reduces [1] S16
  shapeCasts_S16_S16x1 : S16.ShapeCasts S16x1
  reducesTo_S2x16x512_S16x512_d0 : S2x16x512.ReducesTo [0] S16x512
  h_S_ : 0 < S_.numel
  reducesTo_S2x16x1_S16x1_d0 : S2x16x1.ReducesTo [0] S16x1
  bcast_S_S16x1 : S_.BroadcastsInDim S16x1 (![] : Fin 0 → Fin S16x1.rank)
  bcast_S16x1_S16x512_0_1 : S16x1.BroadcastsInDim S16x512 (![0, 1] : Fin 2 → Fin S16x512.rank)
  bcast_S_S16x512 : S_.BroadcastsInDim S16x512 (![] : Fin 0 → Fin S16x512.rank)
  inb_S16x512_S16x512_0_0 : ∀ a, (![0, 0] : Fin 2 → Nat) a + S16x512.size a ≤ S16x512.size a
  h_S16x512 : 0 < S16x512.numel
  shapeCasts_S16x512_S16x512 : S16x512.ShapeCasts S16x512
  dot_S16x2048_S2048x512_S16x512_1_0_0_1_n_n_wf : DotDims.WF S16x2048 S2048x512 S16x512 [1] [0] [0] [1] [] []
  dot_S16x2048_S16x512_S2048x512_0_0_1_1_n_n_wf : DotDims.WF S16x2048 S16x512 S2048x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x65536.size a
  hwx0_1 : ∀ i : grid0.Coords, EltTy.bits .i32 = 32 ∨ (Rect.block (s := S1x65536) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512.size a ≤ S2x16x512.size a
  hwx0_2 : ∀ i : grid0.Coords, EltTy.bits .f32 = 32 ∨ (Rect.block (s := S2x16x512) S1x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512.size a ≤ S2x16x512.size a
  hwx0_3 : ∀ i : grid0.Coords, EltTy.bits .f32 = 32 ∨ (Rect.block (s := S2x16x512) S1x16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1.size a ≤ S2x16x1.size a
  hwx0_4 : ∀ i : grid0.Coords, EltTy.bits .f32 = 32 ∨ (Rect.block (s := S2x16x1) S1x16x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x65536.size a
  hwx1_1 : ∀ i : grid1.Coords, EltTy.bits .i32 = 32 ∨ (Rect.block (s := S1x65536) S1x2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x512.size a
  hwx1_2 : ∀ i : grid1.Coords, EltTy.bits .f32 = 32 ∨ (Rect.block (s := S16x512) S16x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x512.size a ≤ S16x512.size a
  hwx1_3 : ∀ i : grid1.Coords, EltTy.bits .f32 = 32 ∨ (Rect.block (s := S16x512) S16x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S65536x512.size a
  hwx1_4 : ∀ i : grid1.Coords, EltTy.bits .f32 = 32 ∨ (Rect.block (s := S65536x512) S2048x512.size (cc1_transform_4 i) (hinb1_4 i)).WholeWords (EltTy.packing .f32)

variable [Facts₀]

def dot_S16x2048_S2048x512_S16x512_1_0_0_1_n_n : DotDims S16x2048 S2048x512 S16x512 where
  lhsContracting := [1]
  rhsContracting := [0]
  lhsNonContracting := [0]
  rhsNonContracting := [1]
  lhsBatch := []
  rhsBatch := []
  wf := dot_S16x2048_S2048x512_S16x512_1_0_0_1_n_n_wf
def dot_S16x2048_S16x512_S2048x512_0_0_1_1_n_n : DotDims S16x2048 S16x512 S2048x512 where
  lhsContracting := [0]
  rhsContracting := [0]
  lhsNonContracting := [1]
  rhsNonContracting := [1]
  lhsBatch := []
  rhsBatch := []
  wf := dot_S16x2048_S16x512_S2048x512_0_0_1_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S16x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S16x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S65536x512 : Shape := ⟨2, ![65536, 512]⟩
abbrev S65536 : Shape := ⟨1, ![65536]⟩
abbrev S1 : Shape := ⟨1, ![1]⟩
abbrev S1x512 : Shape := ⟨2, ![1, 512]⟩
abbrev S16x512 : Shape := ⟨2, ![16, 512]⟩
abbrev S_ : Shape := ⟨0, ![]⟩
abbrev S16 : Shape := ⟨1, ![16]⟩
abbrev S65536x1 : Shape := ⟨2, ![65536, 1]⟩
abbrev S16x1 : Shape := ⟨2, ![16, 1]⟩

abbrev nBuf : Space → Nat
  | .hbm => 75
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1, .f32⟩
  | .hbm, ⟨3, _⟩ => ⟨S1x512, .f32⟩
  | .hbm, ⟨4, _⟩ => ⟨S16x512, .f32⟩
  | .hbm, ⟨5, _⟩ => ⟨S16x512, .f32⟩
  | .hbm, ⟨6, _⟩ => ⟨S_, .f32⟩
  | .hbm, ⟨7, _⟩ => ⟨S65536, .f32⟩
  | .hbm, ⟨8, _⟩ => ⟨S_, .f32⟩
  | .hbm, ⟨9, _⟩ => ⟨S16, .f32⟩
  | .hbm, ⟨10, _⟩ => ⟨S65536x1, .i32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16x1, .f32⟩
  | .hbm, ⟨16, _⟩ => ⟨S_, .f32⟩
  | .hbm, ⟨17, _⟩ => ⟨S16x512, .f32⟩
  | .hbm, ⟨18, _⟩ => ⟨S65536x1, .i32⟩
  | .hbm, ⟨19, _⟩ => ⟨S16x512, .f32⟩
  | .hbm, ⟨20, _⟩ => ⟨S65536x512, .f32⟩
  | .hbm, ⟨21, _⟩ => ⟨S_, .f32⟩
  | .hbm, ⟨22, _⟩ => ⟨S16x512, .f32⟩
  | .hbm, ⟨23, _⟩ => ⟨S65536x1, .i32⟩
  | .hbm, ⟨24, _⟩ => ⟨S16x512, .f32⟩
  | .hbm, ⟨25, _⟩ => ⟨S16x512, .f32⟩
  | .hbm, ⟨26, _⟩ => ⟨S16x512, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S16x512, .f32⟩
  | .hbm, ⟨31, _⟩ => ⟨S_, .f32⟩
  | .hbm, ⟨32, _⟩ => ⟨S16x512, .f32⟩
  | .hbm, ⟨33, _⟩ => ⟨S16x512, .f32⟩
  | .hbm, ⟨34, _⟩ => ⟨S16x512, .f32⟩
  | .hbm, ⟨35, _⟩ => ⟨S_, .i32⟩
  | .hbm, ⟨36, _⟩ => ⟨S65536, .i32⟩
  | .hbm, ⟨37, _⟩ => ⟨S65536, .i1⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S65536, .i32⟩
  | .hbm, ⟨42, _⟩ => ⟨S65536x1, .i32⟩
  | .hbm, ⟨43, _⟩ => ⟨S65536x512, .f32⟩
  | .hbm, ⟨44, _⟩ => ⟨S65536x512, .f32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S65536x1, .i32⟩
  | .hbm, ⟨53, _⟩ => ⟨S65536x512, .f32⟩
  | .hbm, ⟨54, _⟩ => ⟨S65536x512, .f32⟩
  | .hbm, ⟨55, _⟩ => ⟨S_, .i32⟩
  | .hbm, ⟨56, _⟩ => ⟨S65536, .i32⟩
  | .hbm, ⟨57, _⟩ => ⟨S65536, .i1⟩
  | .hbm, ⟨58, _⟩ => ⟨S_, .i32⟩
  | .hbm, ⟨59, _⟩ => ⟨S65536, .i32⟩
  | .hbm, ⟨60, _⟩ => ⟨S65536, .i32⟩
  | .hbm, ⟨61, _⟩ => ⟨S65536, .i32⟩
  | .hbm, ⟨62, _⟩ => ⟨S65536x1, .i32⟩
  | .hbm, ⟨63, _⟩ => ⟨S65536x512, .f32⟩
  | .hbm, ⟨64, _⟩ => ⟨S65536x512, .f32⟩
  | .hbm, ⟨65, _⟩ => ⟨S_, .i32⟩
  | .hbm, ⟨66, _⟩ => ⟨S65536, .i32⟩
  | .hbm, ⟨67, _⟩ => ⟨S65536, .i1⟩
  | .hbm, ⟨68, _⟩ => ⟨S_, .i32⟩
  | .hbm, ⟨69, _⟩ => ⟨S65536, .i32⟩
  | .hbm, ⟨70, _⟩ => ⟨S65536, .i32⟩
  | .hbm, ⟨71, _⟩ => ⟨S65536, .i32⟩
  | .hbm, ⟨72, _⟩ => ⟨S65536x1, .i32⟩
  | .hbm, ⟨73, _⟩ => ⟨S65536x512, .f32⟩
  | .hbm, ⟨74, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S16 : S_.BroadcastsInDim S16 (![] : Fin 0 → Fin S16.rank)
  bcast_S65536_S65536x1_0 : S65536.BroadcastsInDim S65536x1 (![0] : Fin 1 → Fin S65536x1.rank)
  bcast_S16_S16x1_0 : S16.BroadcastsInDim S16x1 (![0] : Fin 1 → Fin S16x1.rank)
  bcast_S_S16x512 : S_.BroadcastsInDim S16x512 (![] : Fin 0 → Fin S16x512.rank)
  bcast_S16x1_S16x512_0_1 : S16x1.BroadcastsInDim S16x512 (![0, 1] : Fin 2 → Fin S16x512.rank)
  scatter_S16_S65536x1_S65536_n_0_0_1_wf : ScatterDims.WF S16 S65536x1 S65536 [] [0] [0] 1
  scatter_S16x512_S65536x1_S65536x512_1_0_0_1_wf : ScatterDims.WF S16x512 S65536x1 S65536x512 [1] [0] [0] 1
  gather_S16x512_S65536x1_S65536x512_1_0_n_n_0_1_1512_wf : GatherDims.WF S16x512 S65536x1 S65536x512 [1] [0] [] [0] [] 1 ![1, 512]

variable [Facts₀]

def scatter_S16_S65536x1_S65536_n_0_0_1 : ScatterDims S16 S65536x1 S65536 where
  updateWindowDims := []
  insertedWindowDims := [0]
  scatterDimsToOperandDims := [0]
  indexVectorDim := 1
  wf := scatter_S16_S65536x1_S65536_n_0_0_1_wf
def scatter_S16x512_S65536x1_S65536x512_1_0_0_1 : ScatterDims S16x512 S65536x1 S65536x512 where
  updateWindowDims := [1]
  insertedWindowDims := [0]
  scatterDimsToOperandDims := [0]
  indexVectorDim := 1
  wf := scatter_S16x512_S65536x1_S65536x512_1_0_0_1_wf
def gather_S16x512_S65536x1_S65536x512_1_0_n_n_0_1_1512 : GatherDims S16x512 S65536x1 S65536x512 where
  offsetDims := [1]
  collapsedSliceDims := [0]
  operandBatchingDims := []
  startIndicesBatchingDims := []
  startIndexMap := [0]
  indexVectorDim := 1
  sliceSizes := ![1, 512]
  wf := gather_S16x512_S65536x1_S65536x512_1_0_n_n_0_1_1512_wf

class Facts : Prop extends Facts₀ where

variable [Facts]
-- ==== Proof.Spec.lean ====
/-
  Per-domain batch normalisation, over the reals.

  Every row p of x : [65536, 512] carries a domain d p among 16. Per domain k and column q: the number of rows cnt k,
  the column sum sm k q and the sum of squares sq k q over the rows of that domain; the mean sm / max(cnt, 1), the biased
  variance sq / max(cnt, 1) - mean², its inverse square root after adding e > 0, and the normalised row
  (x - mean) · inv · g + b read at the row's own domain. The variance is a non-negative number (the Cauchy-Schwarz
  inequality over the rows of the domain; an empty domain has variance 0), so the inverse square root is a real.
  The same sums taken tile by tile (32 tiles of 2048 consecutive rows, two groups of 16 tiles) and the algebra that
  moves the mean into an additive shift are stated here as well, with the few facts about extended reals that carry a
  real computation through operations on extended reals.
-/
import Idealize.ShloMosaic.PureOps.Ideal
import Mathlib.Algebra.Order.Chebyshev

noncomputable section

namespace DomNorm

open scoped BigOperators

section Defs

variable (d : Fin 65536 → Fin 16) (x : Fin 65536 → Fin 512 → ℝ) (g b : Fin 16 → Fin 512 → ℝ) (e : ℝ)

/-- How many rows belong to domain k. -/
def cnt (k : Fin 16) : ℝ := ∑ p : Fin 65536, (if d p = k then (1 : ℝ) else 0)
/-- The sum of column q over the rows of domain k. -/
def sm (k : Fin 16) (q : Fin 512) : ℝ := ∑ p : Fin 65536, (if d p = k then x p q else 0)
/-- The sum of squares of column q over the rows of domain k. -/
def sq (k : Fin 16) (q : Fin 512) : ℝ := ∑ p : Fin 65536, (if d p = k then x p q * x p q else 0)
/-- The divisor: the count, or 1 for an empty domain. -/
def cntc (k : Fin 16) : ℝ := max (cnt d k) 1
def mean (k : Fin 16) (q : Fin 512) : ℝ := sm d x k q / cntc d k
def var (k : Fin 16) (q : Fin 512) : ℝ := sq d x k q / cntc d k - mean d x k q * mean d x k q
def inv (k : Fin 16) (q : Fin 512) : ℝ := (Real.sqrt (var d x k q + e))⁻¹
/-- The normalised value of row p, column q. -/
def y (p : Fin 65536) (q : Fin 512) : ℝ :=
  (x p q - mean d x (d p) q) * inv d x e (d p) q * g (d p) q + b (d p) q
/-- The multiplicative and additive tables of the two-pass form. -/
def scale (k : Fin 16) (q : Fin 512) : ℝ := inv d x e k q * g k q
def shift (k : Fin 16) (q : Fin 512) : ℝ := b k q - mean d x k q * inv d x e k q * g k q

/-- Row r of tile t. -/
def row (t : Fin 32) (r : Fin 2048) : Fin 65536 := ⟨2048 * t.val + r.val, by omega⟩
/-- Tile j of group cc. -/
def tile (cc : Fin 2) (j : Fin 16) : Fin 32 := ⟨16 * cc.val + j.val, by omega⟩
def tileC (t : Fin 32) (k : Fin 16) : ℝ := ∑ r : Fin 2048, (if d (row t r) = k then (1 : ℝ) else 0)
def tileS (t : Fin 32) (k : Fin 16) (q : Fin 512) : ℝ := ∑ r : Fin 2048, (if d (row t r) = k then x (row t r) q else 0)
def tileQ (t : Fin 32) (k : Fin 16) (q : Fin 512) : ℝ :=
  ∑ r : Fin 2048, (if d (row t r) = k then x (row t r) q * x (row t r) q else 0)

end Defs

section Laws

variable (d : Fin 65536 → Fin 16) (x : Fin 65536 → Fin 512 → ℝ) (g b : Fin 16 → Fin 512 → ℝ) (e : ℝ)

/-- The two-pass form is the one-pass form (ring algebra over the reals). -/
theorem y_eq (p : Fin 65536) (q : Fin 512) :
    y d x g b e p q = x p q * scale d x g e (d p) q + shift d x g b e (d p) q := by
  unfold y scale shift; ring

theorem cntc_pos (k : Fin 16) : 0 < cntc d k := by
  unfold cntc
  exact lt_of_lt_of_le one_pos (le_max_right _ _)
theorem cntc_ne (k : Fin 16) : cntc d k ≠ 0 := (cntc_pos d k).ne'

/-- The variance of a domain's rows is non-negative: n · Σ x² ≥ (Σ x)² over the n rows of the domain. -/
theorem var_nonneg (k : Fin 16) (q : Fin 512) : 0 ≤ var d x k q := by
  classical
  -- A: the rows of domain k. The three sums are sums over A.
  have hcnt : cnt d k = ((Finset.univ.filter (fun p => d p = k)).card : ℝ) := by
    unfold cnt; rw [Finset.sum_boole]
  have hsm : sm d x k q = ∑ p ∈ Finset.univ.filter (fun p => d p = k), x p q := by
    unfold sm; rw [Finset.sum_filter]
  have hsq : sq d x k q = ∑ p ∈ Finset.univ.filter (fun p => d p = k), x p q ^ 2 := by
    unfold sq; rw [Finset.sum_filter]
    exact Finset.sum_congr rfl (fun p _ => by rw [pow_two])
  have hc : 0 < cntc d k := cntc_pos d k
  -- the divisor is at least the number of rows, and the sum of squares is non-negative
  have hcn : ((Finset.univ.filter (fun p => d p = k)).card : ℝ) ≤ cntc d k := by
    rw [← hcnt]; exact le_max_left _ _
  have hsq0 : 0 ≤ sq d x k q := by
    rw [hsq]; exact Finset.sum_nonneg (fun _ _ => sq_nonneg _)
  -- (Σ x)² ≤ |A| · Σ x² ≤ c · Σ x²
  have hcs : (sm d x k q) ^ 2 ≤ ((Finset.univ.filter (fun p => d p = k)).card : ℝ) * sq d x k q := by
    rw [hsm, hsq]; exact sq_sum_le_card_mul_sum_sq
  have key : (sm d x k q) ^ 2 ≤ cntc d k * sq d x k q :=
    hcs.trans (mul_le_mul_of_nonneg_right hcn hsq0)
  -- var = (c · Σ x² - (Σ x)²) / c²
  have hform : var d x k q = (cntc d k * sq d x k q - (sm d x k q) ^ 2) / (cntc d k) ^ 2 := by
    unfold var mean
    field_simp
  rw [hform]
  exact div_nonneg (sub_nonneg.mpr key) (sq_nonneg _)

theorem var_add_pos (he : 0 < e) (k : Fin 16) (q : Fin 512) : 0 < var d x k q + e :=
  add_pos_of_nonneg_of_pos (var_nonneg d x k q) he

/-- (t, r) ↦ 2048 · t + r numbers the 65536 rows: quotient and remainder by 2048 invert it. -/
def rowEquiv : Fin 32 × Fin 2048 ≃ Fin 65536 where
  toFun tr := row tr.1 tr.2
  invFun p := (⟨p.val / 2048, by omega⟩, ⟨p.val % 2048, by omega⟩)
  left_inv := by
    rintro ⟨t, r⟩
    refine Prod.ext (Fin.ext ?_) (Fin.ext ?_)
    · show (2048 * t.val + r.val) / 2048 = t.val
      omega
    · show (2048 * t.val + r.val) % 2048 = r.val
      omega
  right_inv := by
    intro p
    refine Fin.ext ?_
    show 2048 * (p.val / 2048) + p.val % 2048 = p.val
    omega

/-- (cc, j) ↦ 16 · cc + j numbers the 32 tiles. -/
def tileEquiv : Fin 2 × Fin 16 ≃ Fin 32 where
  toFun cj := tile cj.1 cj.2
  invFun t := (⟨t.val / 16, by omega⟩, ⟨t.val % 16, by omega⟩)
  left_inv := by
    rintro ⟨cc, j⟩
    refine Prod.ext (Fin.ext ?_) (Fin.ext ?_)
    · show (16 * cc.val + j.val) / 16 = cc.val
      omega
    · show (16 * cc.val + j.val) % 16 = j.val
      omega
  right_inv := by
    intro t
    refine Fin.ext ?_
    show 16 * (t.val / 16) + t.val % 16 = t.val
    omega

/-- A sum over the rows, taken tile by tile. -/
theorem sum_rows_tile (F : Fin 65536 → ℝ) : ∑ p, F p = ∑ t : Fin 32, ∑ r : Fin 2048, F (row t r) := by
  rw [← Fintype.sum_prod_type' (fun t r => F (row t r))]
  exact (Equiv.sum_comp rowEquiv F).symm

/-- A sum over the tiles, taken group by group. -/
theorem sum_tiles_group (G : Fin 32 → ℝ) : ∑ t, G t = ∑ cc : Fin 2, ∑ j : Fin 16, G (tile cc j) := by
  rw [← Fintype.sum_prod_type' (fun cc j => G (tile cc j))]
  exact (Equiv.sum_comp tileEquiv G).symm

/-- A sum over the rows is the sum over the two groups, their 16 tiles, and each tile's 2048 rows. -/
theorem sum_rows (F : Fin 65536 → ℝ) :
    ∑ p, F p = ∑ cc : Fin 2, ∑ j : Fin 16, ∑ r : Fin 2048, F (row (tile cc j) r) := by
  rw [sum_rows_tile F]
  exact sum_tiles_group (fun t => ∑ r : Fin 2048, F (row t r))

/-- The sums over all rows are the sums of the 2 × 16 tiles' sums. -/
theorem cnt_eq_tiles (k : Fin 16) : cnt d k = ∑ cc : Fin 2, ∑ j : Fin 16, tileC d (tile cc j) k := by
  unfold cnt tileC
  exact sum_rows (fun p => if d p = k then (1 : ℝ) else 0)
theorem sm_eq_tiles (k : Fin 16) (q : Fin 512) :
    sm d x k q = ∑ cc : Fin 2, ∑ j : Fin 16, tileS d x (tile cc j) k q := by
  unfold sm tileS
  exact sum_rows (fun p => if d p = k then x p q else 0)
theorem sq_eq_tiles (k : Fin 16) (q : Fin 512) :
    sq d x k q = ∑ cc : Fin 2, ∑ j : Fin 16, tileQ d x (tile cc j) k q := by
  unfold sq tileQ
  exact sum_rows (fun p => if d p = k then x p q * x p q else 0)

end Laws

/-! ## Real computations inside the extended reals -/

open Idealize.ShloMosaic

/-- A finite sum of reals, each read as an extended real, is the real sum read as an extended real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem sub_self_coe (a : ℝ) : (a : EReal) - (a : EReal) = 0 := by
  rw [← EReal.coe_sub, sub_self, EReal.coe_zero]

/-- The quotient of two reals, the divisor not zero. -/
theorem div_coe_coe (a : ℝ) {c : ℝ} (h : c ≠ 0) : Ideal.div (a : EReal) (c : EReal) = ((a / c : ℝ) : EReal) := by
  rw [Ideal.div_coe h, ← EReal.coe_mul, mul_one_div]

/-- The inverse square root of a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem max_coe (a c : ℝ) : max (a : EReal) (c : EReal) = ((max a c : ℝ) : EReal) := by
  rcases le_total a c with h | h
  · rw [max_eq_right h, max_eq_right (EReal.coe_le_coe_iff.mpr h)]
  · rw [max_eq_left h, max_eq_left (EReal.coe_le_coe_iff.mpr h)]

/-- The three float literals of the two programs: zero, one, and the variance's offset (the single-precision number
    nearest 1e-5), a positive real. -/
theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
def eps : ℝ := (Ideal.ofBits .f32 0x3727C5AC#32).toReal
/-- The pattern has sign bit 0, exponent field 110 and fraction field 2606508: the positive normal number
    (2²³ + 2606508) · 2^(110 - 127 - 23) = 10995116 · 2⁻⁴⁰. -/
theorem ofBits_eps_val :
    Ideal.ofBits .f32 0x3727C5AC#32 = (((10995116 : ℝ) * (2 : ℝ) ^ (-40 : Int) : ℝ) : EReal) := by
  simp [Ideal.ofBits, Ideal.ieee, -EReal.coe_mul]
theorem ofBits_eps : Ideal.ofBits .f32 0x3727C5AC#32 = ((eps : ℝ) : EReal) := by
  rw [eps, ofBits_eps_val, EReal.toReal_coe]
theorem eps_pos : 0 < eps := by
  rw [eps, ofBits_eps_val, EReal.toReal_coe]
  positivity

end DomNorm

end
-- ==== Proof.KHost.lean ====
/-
  The host arithmetic between the two kernel regions, as pure functions of the arrays it reads: from the two groups'
  partial sums, sums of squares and counts (one slice per group) and the two parameter tables to the multiplicative
  table inv · gamma and the additive table beta - mean · inv · gamma; and what these are when the partial results are
  the tile sums of real inputs.
-/
import proofs.«416317_j21861383536853_3_alg».proof.KernelIdeal
import proofs.«416317_j21861383536853_3_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.HostAlg

open Cert.KernelIdeal Idealize.ShloMosaic Idealize.ShloMosaic.ValueIdx DomNorm
open Cert.KernelIdeal.Facts₀ Cert.KernelIdeal.Facts

variable [Cert.KernelIdeal.Facts]

section Terms
variable {F : FTy → Type} [FloatOps F]

/-- The divisor table: the two groups' counts added, at least 1, one per domain ([16, 1]). -/
def cntT (C : Vec F S2x16x1 .f32) : Vec F S16x1 .f32 :=
  maximumf (Host.reduceAdd C (constant S_ .f32 0x00000000#32) reducesTo_S2x16x1_S16x1_d0 h_S_)
    (broadcastInDim S16x1 ![] bcast_S_S16x1 (constant S_ .f32 0x3F800000#32))
/-- The mean table. -/
def meanT (S : Vec F S2x16x512 .f32) (C : Vec F S2x16x1 .f32) : Vec F S16x512 .f32 :=
  Host.divf (Host.reduceAdd S (constant S_ .f32 0x00000000#32) reducesTo_S2x16x512_S16x512_d0 h_S_)
    (broadcastInDim S16x512 ![0, 1] bcast_S16x1_S16x512_0_1 (cntT C))
/-- The inverse standard deviation table. -/
def invT (S SQ : Vec F S2x16x512 .f32) (C : Vec F S2x16x1 .f32) : Vec F S16x512 .f32 :=
  Host.rsqrt (addf (subf
      (Host.divf (Host.reduceAdd SQ (constant S_ .f32 0x00000000#32) reducesTo_S2x16x512_S16x512_d0 h_S_)
        (broadcastInDim S16x512 ![0, 1] bcast_S16x1_S16x512_0_1 (cntT C)))
      (mulf (meanT S C) (meanT S C)))
    (broadcastInDim S16x512 ![] bcast_S_S16x512 (constant S_ .f32 0x3727C5AC#32)))
/-- The multiplicative table inv · gamma. -/
def scaleT (S SQ : Vec F S2x16x512 .f32) (C : Vec F S2x16x1 .f32) (G : Vec F S16x512 .f32) : Vec F S16x512 .f32 :=
  mulf (invT S SQ C) G
/-- The additive table beta - (mean · inv) · gamma. -/
def shiftT (S SQ : Vec F S2x16x512 .f32) (C : Vec F S2x16x1 .f32) (G B : Vec F S16x512 .f32) : Vec F S16x512 .f32 :=
  subf B (mulf (mulf (meanT S C) (invT S SQ C)) G)

end Terms

section Reads

/-- The two reductions over the group axis, as reductions that name the inserted coordinate. -/
theorem red512 : S2x16x512.Reduces [0] S16x512 := by decide
theorem red1 : S2x16x1.Reduces [0] S16x1 := by decide

/-- Inserting the group coordinate c in front of (k, q) gives (c, k, q). -/
theorem lift512 (k : Fin 16) (q : Fin 512) (c : Fin 2) :
    red512.lift (ix2 k q) c = ix3 c k q := by
  funext a
  match a with
  | ⟨0, _⟩ => exact Fin.ext rfl
  | ⟨1, _⟩ => exact Fin.ext rfl
  | ⟨2, _⟩ => exact Fin.ext rfl

theorem lift1 (k : Fin 16) (c : Fin 2) :
    red1.lift (ix2 k (0 : Fin 1)) c = ix3 c k (0 : Fin 1) := by
  funext a
  match a with
  | ⟨0, _⟩ => exact Fin.ext rfl
  | ⟨1, _⟩ => exact Fin.ext rfl
  | ⟨2, _⟩ => exact Fin.ext rfl

/-- The sum over the two groups from a zero initial value, at (k, q): slice 0 plus slice 1. -/
theorem sumT (X : Vec Ideal S2x16x512 .f32) (k : Fin 16) (q : Fin 512) :
    Host.reduceAdd X (constant (F := Ideal) S_ .f32 0x00000000#32) reducesTo_S2x16x512_S16x512_d0 h_S_ (ix2 k q)
      = X (ix3 (0 : Fin 2) k q) + X (ix3 (1 : Fin 2) k q) := by
  rw [hostReduceAdd_apply, Ideal.hostReduceAdd_single _ red512, constant_apply, DomNorm.ofBits_zero, zero_add]
  refine (Fin.sum_univ_two (fun c : Fin 2 => X (red512.lift (ix2 k q) c))).trans ?_
  rw [lift512, lift512]

theorem sumC (X : Vec Ideal S2x16x1 .f32) (k : Fin 16) :
    Host.reduceAdd X (constant (F := Ideal) S_ .f32 0x00000000#32) reducesTo_S2x16x1_S16x1_d0 h_S_ (ix2 k (0 : Fin 1))
      = X (ix3 (0 : Fin 2) k (0 : Fin 1)) + X (ix3 (1 : Fin 2) k (0 : Fin 1)) := by
  rw [hostReduceAdd_apply, Ideal.hostReduceAdd_single _ red1, constant_apply, DomNorm.ofBits_zero, zero_add]
  refine (Fin.sum_univ_two (fun c : Fin 2 => X (red1.lift (ix2 k (0 : Fin 1)) c))).trans ?_
  rw [lift1, lift1]

/-- A one-column table broadcast along the columns reads its row's one entry. -/
theorem bcastCol (y : Vec Ideal S16x1 .f32) (k : Fin 16) (q : Fin 512) :
    broadcastInDim S16x512 ![0, 1] bcast_S16x1_S16x512_0_1 y (ix2 k q) = y (ix2 k (0 : Fin 1)) :=
  broadcastInDim_apply _ bcast_S16x1_S16x512_0_1 y (ix2 k q) (ix2 k (0 : Fin 1)) (fun a => match a with
    | ⟨0, _⟩ => by show k.val = if (16 : Nat) = 1 then 0 else k.val; rw [if_neg (by decide)]
    | ⟨1, _⟩ => by show 0 = if (1 : Nat) = 1 then 0 else q.val; rw [if_pos rfl])

/-- The host's inverse square root at an index. -/
theorem hostRsqrt_apply {s : Shape} {φ : FTy} (a : FVec Ideal s φ) (i : s.Idx) :
    Host.rsqrt a i = Ideal.rsqrt (a i) := rfl

end Reads

section Values
variable (d : Fin 65536 → Fin 16) (x : Fin 65536 → Fin 512 → ℝ) (g b : Fin 16 → Fin 512 → ℝ)
variable (S SQ : Vec Ideal S2x16x512 .f32) (C : Vec Ideal S2x16x1 .f32) (G B : Vec Ideal S16x512 .f32)

/-- The divisor table is the specification's divisor. -/
theorem cntT_apply
    (hC : ∀ (cc : Fin 2) (k : Fin 16), C (ix3 cc k (0 : Fin 1)) = ((∑ j : Fin 16, tileC d (tile cc j) k : ℝ) : EReal))
    (k : Fin 16) :
    cntT (F := Ideal) C (ix2 k (0 : Fin 1)) = ((cntc d k : ℝ) : EReal) := by
  unfold cntT
  rw [maximumf_apply, sumC, broadcastInDim_scalar_apply, constant_apply, DomNorm.ofBits_one, hC, hC, ← EReal.coe_add,
    DomNorm.max_coe]
  refine congrArg _ ?_
  unfold cntc
  rw [cnt_eq_tiles, Fin.sum_univ_two]

/-- The mean table is the specification's mean. -/
theorem meanT_apply
    (hS : ∀ (cc : Fin 2) (k : Fin 16) (q : Fin 512), S (ix3 cc k q) = ((∑ j : Fin 16, tileS d x (tile cc j) k q : ℝ) : EReal))
    (hC : ∀ (cc : Fin 2) (k : Fin 16), C (ix3 cc k (0 : Fin 1)) = ((∑ j : Fin 16, tileC d (tile cc j) k : ℝ) : EReal))
    (k : Fin 16) (q : Fin 512) :
    meanT (F := Ideal) S C (ix2 k q) = ((mean d x k q : ℝ) : EReal) := by
  unfold meanT
  rw [hostDivf_apply, sumT, bcastCol, cntT_apply d C hC, hS, hS, ← EReal.coe_add, DomNorm.div_coe_coe _ (cntc_ne d k)]
  refine congrArg _ ?_
  unfold mean
  rw [sm_eq_tiles, Fin.sum_univ_two]

/-- The inverse standard deviation table is the specification's. -/
theorem invT_apply
    (hS : ∀ (cc : Fin 2) (k : Fin 16) (q : Fin 512), S (ix3 cc k q) = ((∑ j : Fin 16, tileS d x (tile cc j) k q : ℝ) : EReal))
    (hQ : ∀ (cc : Fin 2) (k : Fin 16) (q : Fin 512), SQ (ix3 cc k q) = ((∑ j : Fin 16, tileQ d x (tile cc j) k q : ℝ) : EReal))
    (hC : ∀ (cc : Fin 2) (k : Fin 16), C (ix3 cc k (0 : Fin 1)) = ((∑ j : Fin 16, tileC d (tile cc j) k : ℝ) : EReal))
    (k : Fin 16) (q : Fin 512) :
    invT (F := Ideal) S SQ C (ix2 k q) = ((inv d x eps k q : ℝ) : EReal) := by
  unfold invT
  rw [hostRsqrt_apply, addf_apply, subf_apply, hostDivf_apply, sumT, bcastCol, cntT_apply d C hC, mulf_apply,
    meanT_apply d x S C hS hC, broadcastInDim_scalar_apply, constant_apply, DomNorm.ofBits_eps, hQ, hQ, ← EReal.coe_add,
    DomNorm.div_coe_coe _ (cntc_ne d k), ← EReal.coe_mul, ← EReal.coe_sub, ← EReal.coe_add]
  have hv : (∑ j : Fin 16, tileQ d x (tile 0 j) k q + ∑ j : Fin 16, tileQ d x (tile 1 j) k q) / cntc d k
      - mean d x k q * mean d x k q = var d x k q := by
    unfold var
    rw [sq_eq_tiles, Fin.sum_univ_two]
  rw [hv, DomNorm.rsqrt_coe_pos (var_add_pos d x eps eps_pos k q)]
  rfl

/-- With each group's slice holding that group's 16 tile sums of real inputs, the multiplicative table is the
    specification's. -/
theorem scaleT_apply
    (hS : ∀ (cc : Fin 2) (k : Fin 16) (q : Fin 512), S (ix3 cc k q) = ((∑ j : Fin 16, tileS d x (tile cc j) k q : ℝ) : EReal))
    (hQ : ∀ (cc : Fin 2) (k : Fin 16) (q : Fin 512), SQ (ix3 cc k q) = ((∑ j : Fin 16, tileQ d x (tile cc j) k q : ℝ) : EReal))
    (hC : ∀ (cc : Fin 2) (k : Fin 16), C (ix3 cc k (0 : Fin 1)) = ((∑ j : Fin 16, tileC d (tile cc j) k : ℝ) : EReal))
    (hG : ∀ (k : Fin 16) (q : Fin 512), G (ix2 k q) = ((g k q : ℝ) : EReal))
    (k : Fin 16) (q : Fin 512) :
    scaleT (F := Ideal) S SQ C G (ix2 k q) = ((scale d x g eps k q : ℝ) : EReal) := by
  unfold scaleT
  rw [mulf_apply, invT_apply d x S SQ C hS hQ hC, hG, ← EReal.coe_mul]
  rfl

/-- And the additive table is the specification's. -/
theorem shiftT_apply
    (hS : ∀ (cc : Fin 2) (k : Fin 16) (q : Fin 512), S (ix3 cc k q) = ((∑ j : Fin 16, tileS d x (tile cc j) k q : ℝ) : EReal))
    (hQ : ∀ (cc : Fin 2) (k : Fin 16) (q : Fin 512), SQ (ix3 cc k q) = ((∑ j : Fin 16, tileQ d x (tile cc j) k q : ℝ) : EReal))
    (hC : ∀ (cc : Fin 2) (k : Fin 16), C (ix3 cc k (0 : Fin 1)) = ((∑ j : Fin 16, tileC d (tile cc j) k : ℝ) : EReal))
    (hG : ∀ (k : Fin 16) (q : Fin 512), G (ix2 k q) = ((g k q : ℝ) : EReal))
    (hB : ∀ (k : Fin 16) (q : Fin 512), B (ix2 k q) = ((b k q : ℝ) : EReal))
    (k : Fin 16) (q : Fin 512) :
    shiftT (F := Ideal) S SQ C G B (ix2 k q) = ((shift d x g b eps k q : ℝ) : EReal) := by
  unfold shiftT
  rw [subf_apply, mulf_apply, mulf_apply, meanT_apply d x S C hS hC, invT_apply d x S SQ C hS hQ hC, hG, hB,
    ← EReal.coe_mul, ← EReal.coe_mul, ← EReal.coe_sub]
  rfl

end Values

end Cert.KernelIdeal.HostAlg

end
-- ==== Proof.KBound.lean ====
/-
  What the buffers hold at the boundaries of the idealized kernel's @main.

  @main is: two integer constants; the clamp of the domain ids to [0, 15] (an outlined function of six operations);
  their reshape to a [1, 65536] row; the statistics region; 23 host operations (the two groups' partial results
  added, the mean, variance, inverse standard deviation, and the two tables); the normalising region. Host operations
  write only their own result buffers and a region writes only its output arrays, so at every boundary an argument
  array holds its launch contents, the row of clamped ids is what the first stretch computed, the statistics arrays
  are what that region's write-backs left, and the two tables are the host arithmetic of those. A domain id already
  in [0, 16) is left unchanged by the clamp.
-/
import proofs.«416317_j21861383536853_3_alg».proof.Proof.Gen.KernelIdeal.Frame
import proofs.«416317_j21861383536853_3_alg».proof.Proof.KHost
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Bound

open Cert.KernelIdeal Cert.KernelIdeal.Gen Idealize.ShloMosaic Idealize.ShloMosaic.TcCoe Idealize.SL.Sem Idealize.ShloMosaic.ValueIdx DomNorm
open Idealize.ShloMosaic.Pipeline (Dat)

/-- The domain ids clamped to [0, 15] and laid out as one row. -/
def clipD (D : IVec S65536 32) : IVec S1x65536 32 :=
  shapeCast S1x65536
    (minsi (broadcastInDim S65536 ![] bcast_S_S65536 (constantI S_ 32 15#32))
      (maxsi (broadcastInDim S65536 ![] bcast_S_S65536 (constantI S_ 32 0#32)) D))
    shapeCasts_S65536_S1x65536

/-- An id in [0, 16) passes the clamp unchanged. -/
theorem clipD_toInt (D : IVec S65536 32) (d : Fin 65536 → Fin 16)
    (hD : ∀ p : Fin 65536, (D (ix1 p)).toInt = ((d p).val : Int)) (p : Fin 65536) :
    (clipD D (ix2 (0 : Fin 1) p)).toInt = ((d p).val : Int) := by
  have hx := hD p
  have hd : (d p).val < 16 := (d p).isLt
  have h0 : (0#32 : BitVec 32).toInt = 0 := by decide
  have h15 : (15#32 : BitVec 32).toInt = 15 := by decide
  have e1 : IntOp.maxsi (0#32) (D (ix1 p)) = D (ix1 p) := by
    unfold IntOp.maxsi
    rw [if_neg (by rw [BitVec.slt_iff_toInt_lt, hx, h0]; omega)]
  have e2 : IntOp.minsi (15#32) (D (ix1 p)) = D (ix1 p) := by
    unfold IntOp.minsi
    rw [if_neg (by rw [BitVec.slt_iff_toInt_lt, hx, h15]; omega)]
  unfold clipD
  rw [shapeCast_a_1a_apply]
  show (IntOp.minsi (15#32) (IntOp.maxsi (0#32) (D (ix1 p)))).toInt = _
  rw [e1, e2]; exact hx

variable {F : FTy → Type} [FloatOps F]
variable (m : (ℓ : Loc nD τ sig) → Buf (Elt F) ℓ) (ρ : Dev nD → PrngReg)

/-- A buffer that none of a stretch's operations writes holds after the stretch what it held before. -/
local macro "unwritten " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- At the statistics region's entry. -/
theorem V3_arg0 (c : Dev nD) : V3 m ρ c main_arg0 = m ((c : Thread nD τ).loc main_arg0) :=
  calc V3 m ρ c main_arg0
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl
theorem V3_v1 (c : Dev nD) : V3 m ρ c main_v1 = clipD (m ((c : Thread nD τ).loc main_arg1)) := by
  show StableHlo.after hostOps0_2 (StableHlo.after hostOps0_1 (StableHlo.after hostOps0 (W0 m ρ c)))
    (Proc.devRef .tc main_v1) = _
  after_results
  rfl

/-- The two parameter tables are arguments, and no window of the statistics region: at its exit they hold their launch
    contents. -/
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

/-- At the normalising region's entry. -/
theorem V5_arg0 (c : Dev nD) : V5 m ρ c main_arg0 = m ((c : Thread nD τ).loc main_arg0) :=
  calc V5 m ρ c main_arg0
    _ = W4 m ρ c (Proc.devRef .tc main_arg0) := by unwritten hostOps1
    _ = W3 m ρ c (Proc.devRef .tc main_arg0) :=
          (W4_arr m ρ c 0).trans (((dat0 (V3 m ρ) c).arrAt_in 0 rfl _).trans (A_eq0 (V3 m ρ) c 0))
    _ = m ((c : Thread nD τ).loc main_arg0) := V3_arg0 m ρ c
theorem V5_v1 (c : Dev nD) : V5 m ρ c main_v1 = clipD (m ((c : Thread nD τ).loc main_arg1)) :=
  calc V5 m ρ c main_v1
    _ = W4 m ρ c (Proc.devRef .tc main_v1) := by unwritten hostOps1
    _ = W3 m ρ c (Proc.devRef .tc main_v1) :=
          (W4_arr m ρ c 1).trans (((dat0 (V3 m ρ) c).arrAt_in 1 rfl _).trans (A_eq0 (V3 m ρ) c 1))
    _ = clipD (m ((c : Thread nD τ).loc main_arg1)) := V3_v1 m ρ c
theorem V5_v17 (c : Dev nD) : V5 m ρ c main_v17
    = HostAlg.scaleT ((dat0 (V3 m ρ) c).arrAt 2 cfg0.N) ((dat0 (V3 m ρ) c).arrAt 3 cfg0.N) ((dat0 (V3 m ρ) c).arrAt 4 cfg0.N)
        (m ((c : Thread nD τ).loc main_arg4)) := by
  have a2 : W4 m ρ c (Proc.devRef .tc main_v2_0) = (dat0 (V3 m ρ) c).arrAt 2 cfg0.N := W4_arr m ρ c 2
  have a3 : W4 m ρ c (Proc.devRef .tc main_v2_1) = (dat0 (V3 m ρ) c).arrAt 3 cfg0.N := W4_arr m ρ c 3
  have a4 : W4 m ρ c (Proc.devRef .tc main_v2_2) = (dat0 (V3 m ρ) c).arrAt 4 cfg0.N := W4_arr m ρ c 4
  have g4 := W4_arg4 m ρ c
  show StableHlo.after hostOps1 (W4 m ρ c) (Proc.devRef .tc main_v17) = _
  after_results_simp
  rw [a2, a3, a4, g4]
  rfl
theorem V5_v20 (c : Dev nD) : V5 m ρ c main_v20
    = HostAlg.shiftT ((dat0 (V3 m ρ) c).arrAt 2 cfg0.N) ((dat0 (V3 m ρ) c).arrAt 3 cfg0.N) ((dat0 (V3 m ρ) c).arrAt 4 cfg0.N)
        (m ((c : Thread nD τ).loc main_arg4)) (m ((c : Thread nD τ).loc main_arg5)) := by
  have a2 : W4 m ρ c (Proc.devRef .tc main_v2_0) = (dat0 (V3 m ρ) c).arrAt 2 cfg0.N := W4_arr m ρ c 2
  have a3 : W4 m ρ c (Proc.devRef .tc main_v2_1) = (dat0 (V3 m ρ) c).arrAt 3 cfg0.N := W4_arr m ρ c 3
  have a4 : W4 m ρ c (Proc.devRef .tc main_v2_2) = (dat0 (V3 m ρ) c).arrAt 4 cfg0.N := W4_arr m ρ c 4
  have g4 := W4_arg4 m ρ c
  have g5 := W4_arg5 m ρ c
  show StableHlo.after hostOps1 (W4 m ρ c) (Proc.devRef .tc main_v20) = _
  after_results_simp
  rw [a2, a3, a4, g4, g5]
  rfl

/-- At the return: the result array is what the normalising region's write-backs left. -/
theorem W6_res (c : Dev nD) : W6 m ρ c (Proc.devRef .tc main_v21) = (dat1 (V5 m ρ) c).arrAt 4 cfg1.N :=
  W6_arr m ρ c 4

end Cert.KernelIdeal.Bound

end
-- ==== Proof.KStatsCases.lean ====
/-
  What one point of the statistics region leaves in its three output blocks, as values.

  At a point that is not the first of its group the body reads each output block's carried contents and stores back
  "carried + this tile's contribution": for the sums, the 0/1 selection matrix times the tile of x (the factor split
  in two matrix products); for the sums of squares the same with x·x; for the counts the selection matrix summed
  along the rows. At the first point of a group the body first stores zero blocks and then does the same, so the
  carried contents are the zero blocks. Each output is covered by its last store, whose loads read whole buffers.
-/
import proofs.«416317_j21861383536853_3_alg».proof.Proof.Gen.KernelIdeal.Frame
import Idealize.ShloMosaic.Lib.Pipeline.Value
import Idealize.ShloMosaic.Lib.Tactic

set_option maxRecDepth 16384

noncomputable section

namespace Cert.KernelIdeal.Stats

open Cert.KernelIdeal Cert.KernelIdeal.Gen Idealize.ShloMosaic Idealize.ShloMosaic.TcCoe Idealize.SL.Sem

variable {F : FTy → Type} [FloatOps F]

/-- The zero offsets of a rank-3 whole-block rectangle, as the constant function. -/
theorem hz3 : (![0, 0, 0] : Fin 3 → Nat) = fun _ => 0 := funext fun a => by fin_cases a <;> rfl
/-- The zero offsets of a rank-2 whole-block rectangle, as the constant function. -/
theorem hz2 : (![0, 0] : Fin 2 → Nat) = fun _ => 0 := funext fun a => by fin_cases a <;> rfl

/-- A later point of a group: the sums block. -/
theorem out_B_2 (c : Dev nD) (i : grid0.Coords) (a2 : Memref sig .tc .vmem S2048x512 .f32) (h2 : a2.IsWhole) (a3 : Memref sig .tc .vmem S1x2048 .i32) (h3 : a3.IsWhole) (a4 : Memref sig .tc .vmem S1x16x512 .f32) (h4 : a4.IsWhole) (a5 : Memref sig .tc .vmem S1x16x512 .f32) (h5 : a5.IsWhole) (a6 : Memref sig .tc .vmem S1x16x1 .f32) (h6 : a6.IsWhole) (hc : ¬cond0_0 i)
    (x0 : Vec F S2048x512 .f32) (x1 : Vec F S1x2048 .i32) (xo2 xo3 : Vec F S1x16x512 .f32) (xo4 : Vec F S1x16x1 .f32) :
    out0_B_2 c i a2 h2 a3 h3 a4 h4 a5 h5 a6 h6 hc x0 x1 xo2 xo3 xo4 = k0_pay8 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero (S := S1x16x512) hz3]
  simp only [View.readAt_eq_ld, h2.read_unread, h3.read_unread, h4.read_unread, h5.read_unread, h6.read_unread, View.ld_unit_zero (S := S2048x512) hz2, View.ld_unit_zero (S := S1x2048) hz2, View.ld_unit_zero (S := S1x16x512) hz3, View.ld_unit_zero (S := S1x16x1) hz3]
/-- A later point of a group: the sums-of-squares block. -/
theorem out_B_3 (c : Dev nD) (i : grid0.Coords) (a2 : Memref sig .tc .vmem S2048x512 .f32) (h2 : a2.IsWhole) (a3 : Memref sig .tc .vmem S1x2048 .i32) (h3 : a3.IsWhole) (a4 : Memref sig .tc .vmem S1x16x512 .f32) (h4 : a4.IsWhole) (a5 : Memref sig .tc .vmem S1x16x512 .f32) (h5 : a5.IsWhole) (a6 : Memref sig .tc .vmem S1x16x1 .f32) (h6 : a6.IsWhole) (hc : ¬cond0_0 i)
    (x0 : Vec F S2048x512 .f32) (x1 : Vec F S1x2048 .i32) (xo2 xo3 : Vec F S1x16x512 .f32) (xo4 : Vec F S1x16x1 .f32) :
    out0_B_3 c i a2 h2 a3 h3 a4 h4 a5 h5 a6 h6 hc x0 x1 xo2 xo3 xo4 = k0_pay1 (k0_pay9 x0 x1 xo3) := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero (S := S1x16x512) hz3]
  simp only [View.readAt_eq_ld, h2.read_unread, h3.read_unread, h4.read_unread, h5.read_unread, h6.read_unread, View.ld_unit_zero (S := S2048x512) hz2, View.ld_unit_zero (S := S1x2048) hz2, View.ld_unit_zero (S := S1x16x512) hz3, View.ld_unit_zero (S := S1x16x1) hz3]
/-- A later point of a group: the counts block. -/
theorem out_B_4 (c : Dev nD) (i : grid0.Coords) (a2 : Memref sig .tc .vmem S2048x512 .f32) (h2 : a2.IsWhole) (a3 : Memref sig .tc .vmem S1x2048 .i32) (h3 : a3.IsWhole) (a4 : Memref sig .tc .vmem S1x16x512 .f32) (h4 : a4.IsWhole) (a5 : Memref sig .tc .vmem S1x16x512 .f32) (h5 : a5.IsWhole) (a6 : Memref sig .tc .vmem S1x16x1 .f32) (h6 : a6.IsWhole) (hc : ¬cond0_0 i)
    (x0 : Vec F S2048x512 .f32) (x1 : Vec F S1x2048 .i32) (xo2 xo3 : Vec F S1x16x512 .f32) (xo4 : Vec F S1x16x1 .f32) :
    out0_B_4 c i a2 h2 a3 h3 a4 h4 a5 h5 a6 h6 hc x0 x1 xo2 xo3 xo4 = k0_pay2 (k0_pay6 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero (S := S1x16x1) hz3]
  simp only [View.readAt_eq_ld, h2.read_unread, h3.read_unread, h4.read_unread, h5.read_unread, h6.read_unread, View.ld_unit_zero (S := S2048x512) hz2, View.ld_unit_zero (S := S1x2048) hz2, View.ld_unit_zero (S := S1x16x512) hz3, View.ld_unit_zero (S := S1x16x1) hz3]
/-- The first point of a group: the sums block, over the zero block just stored. -/
theorem out_A_2 (c : Dev nD) (i : grid0.Coords) (a2 : Memref sig .tc .vmem S2048x512 .f32) (h2 : a2.IsWhole) (a3 : Memref sig .tc .vmem S1x2048 .i32) (h3 : a3.IsWhole) (a4 : Memref sig .tc .vmem S1x16x512 .f32) (h4 : a4.IsWhole) (a5 : Memref sig .tc .vmem S1x16x512 .f32) (h5 : a5.IsWhole) (a6 : Memref sig .tc .vmem S1x16x1 .f32) (h6 : a6.IsWhole) (hc : cond0_0 i)
    (x0 : Vec F S2048x512 .f32) (x1 : Vec F S1x2048 .i32) :
    out0_A_2 c i a2 h2 a3 h3 a4 h4 a5 h5 a6 h6 hc x0 x1 = k0_pay8 x0 x1 (k0_pay3 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x16x512) hz3, View.readCov_unit_zero (S := S1x16x512) _ hz3]
  simp only [View.readAt_eq_ld, h2.read_unread, h3.read_unread, h4.read_unread, h5.read_unread, h6.read_unread, View.ld_unit_zero (S := S2048x512) hz2, View.ld_unit_zero (S := S1x2048) hz2, View.ld_unit_zero (S := S1x16x512) hz3, View.ld_unit_zero (S := S1x16x1) hz3]
/-- The first point of a group: the sums-of-squares block. -/
theorem out_A_3 (c : Dev nD) (i : grid0.Coords) (a2 : Memref sig .tc .vmem S2048x512 .f32) (h2 : a2.IsWhole) (a3 : Memref sig .tc .vmem S1x2048 .i32) (h3 : a3.IsWhole) (a4 : Memref sig .tc .vmem S1x16x512 .f32) (h4 : a4.IsWhole) (a5 : Memref sig .tc .vmem S1x16x512 .f32) (h5 : a5.IsWhole) (a6 : Memref sig .tc .vmem S1x16x1 .f32) (h6 : a6.IsWhole) (hc : cond0_0 i)
    (x0 : Vec F S2048x512 .f32) (x1 : Vec F S1x2048 .i32) :
    out0_A_3 c i a2 h2 a3 h3 a4 h4 a5 h5 a6 h6 hc x0 x1 = k0_pay1 (k0_pay9 x0 x1 (k0_pay4 (F := F))) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x16x512) hz3, View.readCov_unit_zero (S := S1x16x512) _ hz3]
  simp only [View.readAt_eq_ld, h2.read_unread, h3.read_unread, h4.read_unread, h5.read_unread, h6.read_unread, View.ld_unit_zero (S := S2048x512) hz2, View.ld_unit_zero (S := S1x2048) hz2, View.ld_unit_zero (S := S1x16x512) hz3, View.ld_unit_zero (S := S1x16x1) hz3]
/-- The first point of a group: the counts block. -/
theorem out_A_4 (c : Dev nD) (i : grid0.Coords) (a2 : Memref sig .tc .vmem S2048x512 .f32) (h2 : a2.IsWhole) (a3 : Memref sig .tc .vmem S1x2048 .i32) (h3 : a3.IsWhole) (a4 : Memref sig .tc .vmem S1x16x512 .f32) (h4 : a4.IsWhole) (a5 : Memref sig .tc .vmem S1x16x512 .f32) (h5 : a5.IsWhole) (a6 : Memref sig .tc .vmem S1x16x1 .f32) (h6 : a6.IsWhole) (hc : cond0_0 i)
    (x0 : Vec F S2048x512 .f32) (x1 : Vec F S1x2048 .i32) :
    out0_A_4 c i a2 h2 a3 h3 a4 h4 a5 h5 a6 h6 hc x0 x1 = k0_pay2 (k0_pay6 x1) (k0_pay5 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x16x1) hz3, View.readCov_unit_zero (S := S1x16x1) _ hz3]
  simp only [View.readAt_eq_ld, h2.read_unread, h3.read_unread, h4.read_unread, h5.read_unread, h6.read_unread, View.ld_unit_zero (S := S2048x512) hz2, View.ld_unit_zero (S := S1x2048) hz2, View.ld_unit_zero (S := S1x16x512) hz3, View.ld_unit_zero (S := S1x16x1) hz3]

end Cert.KernelIdeal.Stats

end
-- ==== Proof.KStats.lean ====
/-
  The statistics region's three result arrays, for real inputs.

  The region runs 32 points: point 16·cc + j handles tile 16·cc + j of the rows for group cc. At the first point of a
  group the three output blocks are reset to zero; every point adds to them, per domain k, the tile's rows selected by
  "the row's domain is k" (a 0/1 matrix built from the domain ids, multiplied on the matrix unit with the tile of x, of
  x·x, and summed along the rows for the count). The split of a factor into x and x - x contributes nothing for a real
  x. The block of group cc is written back after the group's last point, so slice cc of each result array is the sum
  of that group's 16 tile sums.
-/
import proofs.«416317_j21861383536853_3_alg».proof.Proof.Gen.KernelIdeal.Frame
import proofs.«416317_j21861383536853_3_alg».proof.Proof.KStatsCases
import proofs.«416317_j21861383536853_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stats

open Cert.KernelIdeal Cert.KernelIdeal.Gen Idealize.ShloMosaic Idealize.ShloMosaic.TcCoe Idealize.SL.Sem Idealize.ShloMosaic.ValueIdx DomNorm
open Idealize.ShloMosaic.Pipeline (Dat)

variable (V : (c : Dev nD) → (b : Ref sig .tc) → Buf (Elt Ideal) ((c : Thread nD τ).loc b))
variable (d : Fin 65536 → Fin 16) (x : Fin 65536 → Fin 512 → ℝ)

/-! ## The selection matrix -/

/-- Comparing two row numbers below 16 as 32-bit words, widening the bit and reading it signed: 1 when equal, else 0. -/
theorem cmp_word (a b : Fin 16) :
    ((IntOp.cmpi .eq (BitVec.ofNat 32 a.val) (BitVec.ofNat 32 b.val)).setWidth 32).toInt = if b = a then (1 : Int) else 0 := by
  revert a b; decide

/-- A 32-bit word whose signed reading is a number below 16 is that number's word. -/
theorem word_of_toInt (w : BitVec 32) (b : Fin 16) (h : w.toInt = (b.val : Int)) : w = BitVec.ofNat 32 b.val := by
  apply BitVec.eq_of_toInt_eq
  rw [h]
  clear h
  revert b; decide

/-- Entry (k, r) of the selection matrix built from a tile's domain ids: 1 when row r belongs to domain k, else 0. -/
theorem sel_apply (x1 : Vec Ideal S1x2048 .i32) (dr : Fin 2048 → Fin 16)
    (hd : ∀ r : Fin 2048, ((x1 : S1x2048.Idx → BitVec 32) (ix2 (0 : Fin 1) r)).toInt = ((dr r).val : Int))
    (k : Fin 16) (r : Fin 2048) :
    (k0_pay6 (F := Ideal) x1 : S16x2048.Idx → EReal) (ix2 k r) = if dr r = k then (1 : EReal) else 0 := by
  have e1 : broadcastTo S16x2048 (shapeCast S1x2048 x1 shapeCasts_S1x2048_S1x2048) broadcasts_S1x2048_S16x2048 (ix2 k r)
      = (x1 : S1x2048.Idx → BitVec 32) (ix2 (0 : Fin 1) r) := by
    rw [shapeCast_self]
    refine broadcastTo_apply _ _ _ (ix2 (0 : Fin 1) r) fun a => ?_
    match a with
    | ⟨0, _⟩ => rfl
    | ⟨1, _⟩ => rfl
  have e2 : iota .tc S16x2048 32 [0] iota_S16x2048_d0_w32 (ix2 k r) = BitVec.ofNat 32 k.val := by
    show BitVec.ofNat 32 (0 * 16 + k.val) = _
    rw [Nat.zero_mul, Nat.zero_add]
  show (((((IntOp.cmpi .eq (iota .tc S16x2048 32 [0] iota_S16x2048_d0_w32 (ix2 k r))
      (broadcastTo S16x2048 (shapeCast S1x2048 x1 shapeCasts_S1x2048_S1x2048) broadcasts_S1x2048_S16x2048 (ix2 k r))).setWidth 32).toInt : Int) : ℝ) : EReal) = _
  rw [e1, e2, word_of_toInt _ (dr r) (hd r), cmp_word]
  split_ifs <;> simp

/-! ## The matrix product against a zero accumulator, at an index -/

theorem lhs_ax0 (i : S16x512.Idx) (q : dot_S16x2048_S2048x512_S16x512_1_0_0_1_n_n.contr.Idx) :
    (dot_S16x2048_S2048x512_S16x512_1_0_0_1_n_n.lhsIdx i q 0).val = (i 0).val := by
  unfold DotDims.lhsIdx
  rw [dif_neg (show ¬(0 : Fin S16x2048.rank) ∈ dot_S16x2048_S2048x512_S16x512_1_0_0_1_n_n.lhsBatch by decide),
    dif_pos (show (0 : Fin S16x2048.rank) ∈ dot_S16x2048_S2048x512_S16x512_1_0_0_1_n_n.lhsNonContracting by decide)]
  rfl
theorem lhs_ax1 (i : S16x512.Idx) (q : dot_S16x2048_S2048x512_S16x512_1_0_0_1_n_n.contr.Idx) :
    (dot_S16x2048_S2048x512_S16x512_1_0_0_1_n_n.lhsIdx i q 1).val = (q ⟨0, by decide⟩).val :=
  dot_S16x2048_S2048x512_S16x512_1_0_0_1_n_n.lhsIdx_val_of_single rfl i q
theorem rhs_ax0 (i : S16x512.Idx) (q : dot_S16x2048_S2048x512_S16x512_1_0_0_1_n_n.contr.Idx) :
    (dot_S16x2048_S2048x512_S16x512_1_0_0_1_n_n.rhsIdx i q 0).val = (q ⟨0, by decide⟩).val :=
  dot_S16x2048_S2048x512_S16x512_1_0_0_1_n_n.rhsIdx_val_of_single rfl i q
theorem rhs_ax1 (i : S16x512.Idx) (q : dot_S16x2048_S2048x512_S16x512_1_0_0_1_n_n.contr.Idx) :
    (dot_S16x2048_S2048x512_S16x512_1_0_0_1_n_n.rhsIdx i q 1).val = (i 1).val := by
  unfold DotDims.rhsIdx
  rw [dif_neg (show ¬(1 : Fin S2048x512.rank) ∈ dot_S16x2048_S2048x512_S16x512_1_0_0_1_n_n.rhsBatch by decide),
    dif_pos (show (1 : Fin S2048x512.rank) ∈ dot_S16x2048_S2048x512_S16x512_1_0_0_1_n_n.rhsNonContracting by decide)]
  rfl

/-- Entry (k, q) of the product of a [16, 2048] matrix with a [2048, 512] matrix, accumulated from zero: the sum over
    the 2048 rows. -/
theorem mm_apply (A : FVec Ideal S16x2048 .bf16) (B : FVec Ideal S2048x512 .bf16) (k : Fin 16) (q : Fin 512) :
    (FloatOps.matmul dot_S16x2048_S2048x512_S16x512_1_0_0_1_n_n none A B (constant (F := Ideal) S16x512 .f32 0x00000000#32) : S16x512.Idx → EReal) (ix2 k q)
      = ∑ r : Fin 2048, (A (ix2 k r) : EReal) * (B (ix2 r q) : EReal) := by
  rw [Ideal.matmul_constant_zero_apply, ← Equiv.sum_comp (contrEquiv1 dot_S16x2048_S2048x512_S16x512_1_0_0_1_n_n 2048 rfl rfl).symm]
  refine Finset.sum_congr rfl fun r _ => ?_
  have hk := contrEquiv1_symm_val dot_S16x2048_S2048x512_S16x512_1_0_0_1_n_n 2048 rfl rfl r
  have el : dot_S16x2048_S2048x512_S16x512_1_0_0_1_n_n.lhsIdx (ix2 k q) ((contrEquiv1 dot_S16x2048_S2048x512_S16x512_1_0_0_1_n_n 2048 rfl rfl).symm r) = ix2 k r :=
    funext fun a => Fin.ext (by
      match a with
      | ⟨0, _⟩ => exact lhs_ax0 _ _
      | ⟨1, _⟩ => exact (lhs_ax1 _ _).trans hk)
  have er : dot_S16x2048_S2048x512_S16x512_1_0_0_1_n_n.rhsIdx (ix2 k q) ((contrEquiv1 dot_S16x2048_S2048x512_S16x512_1_0_0_1_n_n 2048 rfl rfl).symm r) = ix2 r q :=
    funext fun a => Fin.ext (by
      match a with
      | ⟨0, _⟩ => exact (rhs_ax0 _ _).trans hk
      | ⟨1, _⟩ => exact rhs_ax1 _ _)
  rw [el, er]

/-! ## The three contributions of a tile -/

/-- A row of the 0/1 matrix against a column of reals: the sum of the selected entries. -/
theorem sel_sum (A : S16x2048.Idx → EReal) (B : S2048x512.Idx → EReal) (dr : Fin 2048 → Fin 16) (b : Fin 2048 → ℝ) (k : Fin 16) (q : Fin 512)
    (hA : ∀ r, A (ix2 k r) = if dr r = k then (1 : EReal) else 0) (hB : ∀ r, B (ix2 r q) = ((b r : ℝ) : EReal)) :
    ∑ r : Fin 2048, A (ix2 k r) * B (ix2 r q) = ((∑ r : Fin 2048, (if dr r = k then b r else 0) : ℝ) : EReal) := by
  rw [← DomNorm.coe_sum]
  refine Finset.sum_congr rfl fun r _ => ?_
  rw [hA r, hB r]
  split_ifs
  · rw [one_mul]
  · rw [zero_mul, EReal.coe_zero]

/-- The pair of products the kernel forms for one factor y (y itself and y - y): the selected sum of y. -/
theorem two_products (x1 : Vec Ideal S1x2048 .i32) (dr : Fin 2048 → Fin 16)
    (hd : ∀ r : Fin 2048, ((x1 : S1x2048.Idx → BitVec 32) (ix2 (0 : Fin 1) r)).toInt = ((dr r).val : Int))
    (y : FVec Ideal S2048x512 .f32) (b : Fin 2048 → Fin 512 → ℝ) (hy : ∀ r q, (y (ix2 r q) : EReal) = ((b r q : ℝ) : EReal))
    (k : Fin 16) (q : Fin 512) :
    ((FloatOps.matmul dot_S16x2048_S2048x512_S16x512_1_0_0_1_n_n none (k0_pay7 (F := Ideal) x1) (truncf .bf16 y bitsLt_bf16_f32) (constant (F := Ideal) S16x512 .f32 0x00000000#32) : S16x512.Idx → EReal) (ix2 k q)
      + (FloatOps.matmul dot_S16x2048_S2048x512_S16x512_1_0_0_1_n_n none (k0_pay7 (F := Ideal) x1) (truncf .bf16 (subf y y) bitsLt_bf16_f32) (constant (F := Ideal) S16x512 .f32 0x00000000#32) : S16x512.Idx → EReal) (ix2 k q))
      = ((∑ r : Fin 2048, (if dr r = k then b r q else 0) : ℝ) : EReal) := by
  rw [mm_apply, mm_apply]
  have hA : ∀ r, (k0_pay7 (F := Ideal) x1 : S16x2048.Idx → EReal) (ix2 k r) = if dr r = k then (1 : EReal) else 0 :=
    fun r => sel_apply x1 dr hd k r
  refine (congrArg₂ (· + ·)
    (sel_sum (k0_pay7 (F := Ideal) x1) (truncf .bf16 y bitsLt_bf16_f32) dr (fun r => b r q) k q hA (fun r => hy r q))
    (sel_sum (k0_pay7 (F := Ideal) x1) (truncf .bf16 (subf y y) bitsLt_bf16_f32) dr (fun _ => (0 : ℝ)) k q hA (fun r => by
      show (y (ix2 r q) : EReal) - (y (ix2 r q) : EReal) = _
      rw [hy r q, DomNorm.sub_self_coe, EReal.coe_zero]))).trans ?_
  rw [← EReal.coe_add]
  refine congrArg _ ?_
  simp

section Payloads
variable (x0 : Vec Ideal S2048x512 .f32) (x1 : Vec Ideal S1x2048 .i32) (xr : Fin 2048 → Fin 512 → ℝ) (dr : Fin 2048 → Fin 16)

/-- The sums block after a point: what it carried plus the tile's selected column sums. -/
theorem pay_sum (p : Vec Ideal S1x16x512 .f32)
    (hx : ∀ r q, ((x0 : S2048x512.Idx → EReal) (ix2 r q)) = ((xr r q : ℝ) : EReal))
    (hd : ∀ r : Fin 2048, ((x1 : S1x2048.Idx → BitVec 32) (ix2 (0 : Fin 1) r)).toInt = ((dr r).val : Int))
    (k : Fin 16) (q : Fin 512) :
    (k0_pay8 (F := Ideal) x0 x1 p : S1x16x512.Idx → EReal) (ix3 (0 : Fin 1) k q)
      = (p : S1x16x512.Idx → EReal) (ix3 (0 : Fin 1) k q) + ((∑ r : Fin 2048, (if dr r = k then xr r q else 0) : ℝ) : EReal) := by
  unfold k0_pay8
  refine (shapeCast_ab_1ab_apply _ _ (0 : Fin 1) k q).trans ?_
  refine congrArg₂ (· + ·) (shapeCast_1ab_ab_apply _ _ k q) ?_
  exact two_products x1 dr hd x0 xr hx k q

/-- The sums-of-squares block after a point. -/
theorem pay_sq (p : Vec Ideal S1x16x512 .f32)
    (hx : ∀ r q, ((x0 : S2048x512.Idx → EReal) (ix2 r q)) = ((xr r q : ℝ) : EReal))
    (hd : ∀ r : Fin 2048, ((x1 : S1x2048.Idx → BitVec 32) (ix2 (0 : Fin 1) r)).toInt = ((dr r).val : Int))
    (k : Fin 16) (q : Fin 512) :
    (k0_pay1 (F := Ideal) (k0_pay9 (F := Ideal) x0 x1 p) : S1x16x512.Idx → EReal) (ix3 (0 : Fin 1) k q)
      = (p : S1x16x512.Idx → EReal) (ix3 (0 : Fin 1) k q) + ((∑ r : Fin 2048, (if dr r = k then xr r q * xr r q else 0) : ℝ) : EReal) := by
  unfold k0_pay1 k0_pay9
  refine (shapeCast_ab_1ab_apply _ _ (0 : Fin 1) k q).trans ?_
  refine congrArg₂ (· + ·) (shapeCast_1ab_ab_apply _ _ k q) ?_
  exact two_products x1 dr hd (mulf x0 x0) (fun r q => xr r q * xr r q) (fun r q => by
    show (x0 (ix2 r q) : EReal) * (x0 (ix2 r q) : EReal) = _
    rw [hx r q, ← EReal.coe_mul]) k q

/-- A row of the 0/1 matrix summed along its 2048 entries. -/
theorem lane_sum (v : FVec Ideal S16x2048 .f32) (k : Fin 16) :
    (multiReduction (F := Ideal) .add [1] S16 v 0x00000000#32 reduces_S16x2048_S16 (.inl rfl) rfl : S16.Idx → EReal) (ix1 k)
      = ∑ r : Fin 2048, (v (ix2 k r) : EReal) := by
  refine (Ideal.multiReduction_add_single v 0x00000000#32 reduces_S16x2048_S16 (.inl rfl) rfl (ix1 k)).trans ?_
  refine Finset.sum_congr rfl fun r _ => congrArg v ?_
  funext a
  match a with
  | ⟨0, _⟩ => rfl
  | ⟨1, _⟩ => rfl

/-- The counts block after a point: what it carried plus the number of the tile's rows in each domain. -/
theorem pay_cnt (p : Vec Ideal S1x16x1 .f32)
    (hd : ∀ r : Fin 2048, ((x1 : S1x2048.Idx → BitVec 32) (ix2 (0 : Fin 1) r)).toInt = ((dr r).val : Int))
    (k : Fin 16) :
    (k0_pay2 (F := Ideal) (k0_pay6 (F := Ideal) x1) p : S1x16x1.Idx → EReal) (ix3 (0 : Fin 1) k (0 : Fin 1))
      = (p : S1x16x1.Idx → EReal) (ix3 (0 : Fin 1) k (0 : Fin 1)) + ((∑ r : Fin 2048, (if dr r = k then (1 : ℝ) else 0) : ℝ) : EReal) := by
  unfold k0_pay2
  refine (shapeCast_ab_1ab_apply _ _ (0 : Fin 1) k (0 : Fin 1)).trans ?_
  refine congrArg₂ (· + ·) (shapeCast_1ab_ab_apply _ _ k (0 : Fin 1)) ?_
  refine (shapeCast_apply _ shapeCasts_S16_S16x1 (ix2 k (0 : Fin 1)) (ix1 k) (by
    rw [Shape.rowMajor_val_one, Shape.rowMajor_val_two]
    show k.val = k.val * 1 + 0
    omega)).trans ?_
  rw [lane_sum, ← DomNorm.coe_sum]
  refine Finset.sum_congr rfl fun r _ => ?_
  rw [sel_apply x1 dr hd k r]
  split_ifs
  · rfl
  · rw [EReal.coe_zero]

/-- The zero blocks stored at a group's first point read 0. -/
theorem zero3_apply (k : Fin 16) (q : Fin 512) : (k0_pay3 (F := Ideal) : S1x16x512.Idx → EReal) (ix3 (0 : Fin 1) k q) = 0 := by
  unfold k0_pay3
  refine (shapeCast_ab_1ab_apply _ _ (0 : Fin 1) k q).trans ?_
  exact DomNorm.ofBits_zero
theorem zero4_apply (k : Fin 16) (q : Fin 512) : (k0_pay4 (F := Ideal) : S1x16x512.Idx → EReal) (ix3 (0 : Fin 1) k q) = 0 := by
  unfold k0_pay4
  refine (shapeCast_ab_1ab_apply _ _ (0 : Fin 1) k q).trans ?_
  exact DomNorm.ofBits_zero
theorem zero5_apply (k : Fin 16) : (k0_pay5 (F := Ideal) : S1x16x1.Idx → EReal) (ix3 (0 : Fin 1) k (0 : Fin 1)) = 0 := by
  unfold k0_pay5
  refine (shapeCast_ab_1ab_apply _ _ (0 : Fin 1) k (0 : Fin 1)).trans ?_
  exact DomNorm.ofBits_zero

end Payloads

/-! ## The blocks a point reads -/

/-- Where each window's block sits at point t: windows 0 and 1 at block t of the rows, the outputs at block t / 16. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

/-- A point as a tile number. -/
abbrev pt (t : Fin cfg0.N) : Fin 32 := ⟨t.val, lt_of_lt_of_eq t.isLt N_0⟩

/-- The tile of x and the tile of domain ids a point reads. -/
abbrev xblk (c : Dev nD) (t : Fin cfg0.N) : Vec Ideal S2048x512 .f32 := iblk0 V c 0 t
abbrev dblk (c : Dev nD) (t : Fin cfg0.N) : Vec Ideal S1x2048 .i32 := iblk0 V c 1 t

/-- Row r of the tile of x at point t is row 2048·t + r of x. -/
theorem xblk_apply (c : Dev nD) (t : Fin cfg0.N) (r : Fin 2048) (q : Fin 512) :
    (xblk V c t : S2048x512.Idx → EReal) (ix2 r q) = (V c main_arg0 : S65536x512.Idx → EReal) (ix2 (row (pt t) r) q) := by
  obtain ⟨e0, e1, -⟩ := idx_facts t
  unfold xblk iblk0
  rw [View.read_apply]
  show (V c main_arg0 : S65536x512.Idx → EReal) _ = (V c main_arg0 : S65536x512.Idx → EReal) _
  refine congrArg _ (funext fun a => Fin.ext ?_)
  match a with
  | ⟨0, _⟩ => show win0_0.index t (0 : Fin 2) * 2048 + 1 * r.val = 2048 * t.val + r.val; rw [e0]; omega
  | ⟨1, _⟩ => show win0_0.index t (1 : Fin 2) * 512 + 1 * q.val = q.val; rw [e1]; omega

/-- Entry r of the tile of domain ids at point t is entry 2048·t + r of the ids. -/
theorem dblk_apply (c : Dev nD) (t : Fin cfg0.N) (r : Fin 2048) :
    (dblk V c t : S1x2048.Idx → BitVec 32) (ix2 (0 : Fin 1) r) = (V c main_v1 : S1x65536.Idx → BitVec 32) (ix2 (0 : Fin 1) (row (pt t) r)) := by
  obtain ⟨-, -, e0, e1, -⟩ := idx_facts t
  unfold dblk iblk0
  rw [View.read_apply]
  show (V c main_v1 : S1x65536.Idx → BitVec 32) _ = (V c main_v1 : S1x65536.Idx → BitVec 32) _
  refine congrArg _ (funext fun a => Fin.ext ?_)
  match a with
  | ⟨0, _⟩ => show win0_1.index t (0 : Fin 2) * 1 + 1 * 0 = 0; rw [e0]
  | ⟨1, _⟩ => show win0_1.index t (1 : Fin 2) * 2048 + 1 * r.val = 2048 * t.val + r.val; rw [e1]; omega

/-! ## One point's effect on the three blocks -/

section Steps
variable (c : Dev nD)
  (hX : ∀ (p : Fin 65536) (q : Fin 512), (V c main_arg0 : S65536x512.Idx → EReal) (ix2 p q) = ((x p q : ℝ) : EReal))
  (hD : ∀ p : Fin 65536, ((V c main_v1 : S1x65536.Idx → BitVec 32) (ix2 (0 : Fin 1) p)).toInt = ((d p).val : Int))
include hX hD

/-- The tile of x at point t holds the reals x (row t r) q. -/
theorem xblk_real (t : Fin cfg0.N) (r : Fin 2048) (q : Fin 512) :
    (xblk V c t : S2048x512.Idx → EReal) (ix2 r q) = ((x (row (pt t) r) q : ℝ) : EReal) :=
  (xblk_apply V c t r q).trans (hX _ q)
omit hX in
/-- The tile of ids at point t holds the domains d (row t r). -/
theorem dblk_dom (t : Fin cfg0.N) (r : Fin 2048) :
    ((dblk V c t : S1x2048.Idx → BitVec 32) (ix2 (0 : Fin 1) r)).toInt = ((d (row (pt t) r)).val : Int) := by
  rw [dblk_apply]; exact hD _

/-- A group's first point leaves its own tile's sums. -/
theorem firstS (t : Fin cfg0.N) (h0 : t.val % 16 = 0) (k : Fin 16) (q : Fin 512) :
    ((outsAt0 V c t.val t.isLt).1 : S1x16x512.Idx → EReal) (ix3 (0 : Fin 1) k q) = ((tileS d x (pt t) k q : ℝ) : EReal) := by
  rw [outsAt0_A V c t h0]
  dsimp only
  refine (congrFun (out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t) (dblk V c t)) (ix3 (0 : Fin 1) k q)).trans ?_
  refine (pay_sum (xblk V c t) (dblk V c t) (fun r q => x (row (pt t) r) q) (fun r => d (row (pt t) r)) (k0_pay3 (F := Ideal))
    (fun r q => xblk_real V d x c hX hD t r q) (fun r => dblk_dom V d c hD t r) k q).trans ?_
  rw [zero3_apply, zero_add]
  rfl
theorem firstQ (t : Fin cfg0.N) (h0 : t.val % 16 = 0) (k : Fin 16) (q : Fin 512) :
    ((outsAt0 V c t.val t.isLt).2.1 : S1x16x512.Idx → EReal) (ix3 (0 : Fin 1) k q) = ((tileQ d x (pt t) k q : ℝ) : EReal) := by
  rw [outsAt0_A V c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t) (dblk V c t)) (ix3 (0 : Fin 1) k q)).trans ?_
  refine (pay_sq (xblk V c t) (dblk V c t) (fun r q => x (row (pt t) r) q) (fun r => d (row (pt t) r)) (k0_pay4 (F := Ideal))
    (fun r q => xblk_real V d x c hX hD t r q) (fun r => dblk_dom V d c hD t r) k q).trans ?_
  rw [zero4_apply, zero_add]
  rfl
omit hX in
theorem firstC (t : Fin cfg0.N) (h0 : t.val % 16 = 0) (k : Fin 16) :
    ((outsAt0 V c t.val t.isLt).2.2 : S1x16x1.Idx → EReal) (ix3 (0 : Fin 1) k (0 : Fin 1)) = ((tileC d (pt t) k : ℝ) : EReal) := by
  rw [outsAt0_A V c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t) (dblk V c t)) (ix3 (0 : Fin 1) k (0 : Fin 1))).trans ?_
  refine (pay_cnt (dblk V c t) (fun r => d (row (pt t) r)) (k0_pay5 (F := Ideal)) (fun r => dblk_dom V d c hD t r) k).trans ?_
  rw [zero5_apply, zero_add]
  rfl

/-- A later point adds its tile's sums to what the point before left. -/
theorem nextS (t : Fin cfg0.N) (h0 : ¬t.val % 16 = 0) (k : Fin 16) (q : Fin 512) :
    ((outsAt0 V c t.val t.isLt).1 : S1x16x512.Idx → EReal) (ix3 (0 : Fin 1) k q)
      = ((outsAt0 V c (t.val - 1) (Nat.lt_of_le_of_lt (Nat.sub_le _ _) t.isLt)).1 : S1x16x512.Idx → EReal) (ix3 (0 : Fin 1) k q) + ((tileS d x (pt t) k q : ℝ) : EReal) := by
  rw [outsAt0_B V c t h0]
  dsimp only
  refine (congrFun (out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk V c t) (dblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix3 (0 : Fin 1) k q)).trans ?_
  exact pay_sum (xblk V c t) (dblk V c t) (fun r q => x (row (pt t) r) q) (fun r => d (row (pt t) r)) (outsAt0 V c (t.val - 1) (Nat.lt_of_le_of_lt (Nat.sub_le _ _) t.isLt)).1
    (fun r q => xblk_real V d x c hX hD t r q) (fun r => dblk_dom V d c hD t r) k q
theorem nextQ (t : Fin cfg0.N) (h0 : ¬t.val % 16 = 0) (k : Fin 16) (q : Fin 512) :
    ((outsAt0 V c t.val t.isLt).2.1 : S1x16x512.Idx → EReal) (ix3 (0 : Fin 1) k q)
      = ((outsAt0 V c (t.val - 1) (Nat.lt_of_le_of_lt (Nat.sub_le _ _) t.isLt)).2.1 : S1x16x512.Idx → EReal) (ix3 (0 : Fin 1) k q) + ((tileQ d x (pt t) k q : ℝ) : EReal) := by
  rw [outsAt0_B V c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk V c t) (dblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix3 (0 : Fin 1) k q)).trans ?_
  exact pay_sq (xblk V c t) (dblk V c t) (fun r q => x (row (pt t) r) q) (fun r => d (row (pt t) r)) (outsAt0 V c (t.val - 1) (Nat.lt_of_le_of_lt (Nat.sub_le _ _) t.isLt)).2.1
    (fun r q => xblk_real V d x c hX hD t r q) (fun r => dblk_dom V d c hD t r) k q
omit hX in
theorem nextC (t : Fin cfg0.N) (h0 : ¬t.val % 16 = 0) (k : Fin 16) :
    ((outsAt0 V c t.val t.isLt).2.2 : S1x16x1.Idx → EReal) (ix3 (0 : Fin 1) k (0 : Fin 1))
      = ((outsAt0 V c (t.val - 1) (Nat.lt_of_le_of_lt (Nat.sub_le _ _) t.isLt)).2.2 : S1x16x1.Idx → EReal) (ix3 (0 : Fin 1) k (0 : Fin 1)) + ((tileC d (pt t) k : ℝ) : EReal) := by
  rw [outsAt0_B V c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk V c t) (dblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix3 (0 : Fin 1) k (0 : Fin 1))).trans ?_
  exact pay_cnt (dblk V c t) (fun r => d (row (pt t) r)) (outsAt0 V c (t.val - 1) (Nat.lt_of_le_of_lt (Nat.sub_le _ _) t.isLt)).2.2 (fun r => dblk_dom V d c hD t r) k

end Steps

/-! ## The running sums over a group of 16 points -/

/-- A sequence accumulated point by point, restarted at every point that is a multiple of 16. -/
def runAcc (f : ℕ → ℝ) : ℕ → ℝ
  | 0 => f 0
  | n + 1 => if (n + 1) % 16 = 0 then f (n + 1) else runAcc f n + f (n + 1)

/-- It is the sum over the points of the current group so far. -/
theorem runAcc_eq (f : ℕ → ℝ) : ∀ n : ℕ, runAcc f n = ∑ j ∈ Finset.range (n % 16 + 1), f (n - n % 16 + j)
  | 0 => by simp [runAcc]
  | n + 1 => by
    by_cases h : (n + 1) % 16 = 0
    · rw [runAcc, if_pos h, h]
      simp
    · have h1 : (n + 1) % 16 = n % 16 + 1 := by omega
      have h2 : n + 1 - (n % 16 + 1) = n - n % 16 := by omega
      have h3 : n - n % 16 + (n % 16 + 1) = n + 1 := by omega
      rw [runAcc, if_neg h, runAcc_eq f n, h1, h2, Finset.sum_range_succ _ (n % 16 + 1), h3]

/-- After a group's last point: the sum over the group's 16 points. -/
theorem runAcc_last (f : ℕ → ℝ) (g : ℕ) : runAcc f (16 * g + 15) = ∑ j : Fin 16, f (16 * g + j.val) := by
  have h1 : (16 * g + 15) % 16 = 15 := by omega
  have h2 : 16 * g + 15 - 15 = 16 * g := by omega
  rw [runAcc_eq, h1, h2, Finset.sum_range]

/-- The three per-tile sums as functions of a point's number. -/
def ptS (k : Fin 16) (q : Fin 512) (m : ℕ) : ℝ := if hm : m < 32 then tileS d x ⟨m, hm⟩ k q else 0
def ptQ (k : Fin 16) (q : Fin 512) (m : ℕ) : ℝ := if hm : m < 32 then tileQ d x ⟨m, hm⟩ k q else 0
def ptC (k : Fin 16) (m : ℕ) : ℝ := if hm : m < 32 then tileC d ⟨m, hm⟩ k else 0

section Invariant
variable (c : Dev nD)
  (hX : ∀ (p : Fin 65536) (q : Fin 512), (V c main_arg0 : S65536x512.Idx → EReal) (ix2 p q) = ((x p q : ℝ) : EReal))
  (hD : ∀ p : Fin 65536, ((V c main_v1 : S1x65536.Idx → BitVec 32) (ix2 (0 : Fin 1) p)).toInt = ((d p).val : Int))
include hX hD

/-- After every point the sums block holds the running sum of the tiles' sums over the point's group so far. -/
theorem invS (k : Fin 16) (q : Fin 512) : ∀ (n : ℕ) (h : n < cfg0.N),
    ((outsAt0 V c n h).1 : S1x16x512.Idx → EReal) (ix3 (0 : Fin 1) k q) = ((runAcc (ptS d x k q) n : ℝ) : EReal)
  | 0, h => by
    refine (firstS V d x c hX hD ⟨0, h⟩ rfl k q).trans ?_
    have hm : (0 : ℕ) < 32 := by omega
    rw [runAcc, ptS, dif_pos hm]
  | n + 1, h => by
    have hm : n + 1 < 32 := lt_of_lt_of_eq h N_0
    by_cases h0 : (n + 1) % 16 = 0
    · refine (firstS V d x c hX hD ⟨n + 1, h⟩ h0 k q).trans ?_
      rw [runAcc, if_pos h0, ptS, dif_pos hm]
    · refine (nextS V d x c hX hD ⟨n + 1, h⟩ h0 k q).trans ?_
      rw [runAcc, if_neg h0, EReal.coe_add, ptS, dif_pos hm]
      refine congrArg (· + _) ?_
      exact invS k q n (Nat.lt_of_succ_lt h)
theorem invQ (k : Fin 16) (q : Fin 512) : ∀ (n : ℕ) (h : n < cfg0.N),
    ((outsAt0 V c n h).2.1 : S1x16x512.Idx → EReal) (ix3 (0 : Fin 1) k q) = ((runAcc (ptQ d x k q) n : ℝ) : EReal)
  | 0, h => by
    refine (firstQ V d x c hX hD ⟨0, h⟩ rfl k q).trans ?_
    have hm : (0 : ℕ) < 32 := by omega
    rw [runAcc, ptQ, dif_pos hm]
  | n + 1, h => by
    have hm : n + 1 < 32 := lt_of_lt_of_eq h N_0
    by_cases h0 : (n + 1) % 16 = 0
    · refine (firstQ V d x c hX hD ⟨n + 1, h⟩ h0 k q).trans ?_
      rw [runAcc, if_pos h0, ptQ, dif_pos hm]
    · refine (nextQ V d x c hX hD ⟨n + 1, h⟩ h0 k q).trans ?_
      rw [runAcc, if_neg h0, EReal.coe_add, ptQ, dif_pos hm]
      refine congrArg (· + _) ?_
      exact invQ k q n (Nat.lt_of_succ_lt h)
omit hX in
theorem invC (k : Fin 16) : ∀ (n : ℕ) (h : n < cfg0.N),
    ((outsAt0 V c n h).2.2 : S1x16x1.Idx → EReal) (ix3 (0 : Fin 1) k (0 : Fin 1)) = ((runAcc (ptC d k) n : ℝ) : EReal)
  | 0, h => by
    refine (firstC V d c hD ⟨0, h⟩ rfl k).trans ?_
    have hm : (0 : ℕ) < 32 := by omega
    rw [runAcc, ptC, dif_pos hm]
  | n + 1, h => by
    have hm : n + 1 < 32 := lt_of_lt_of_eq h N_0
    by_cases h0 : (n + 1) % 16 = 0
    · refine (firstC V d c hD ⟨n + 1, h⟩ h0 k).trans ?_
      rw [runAcc, if_pos h0, ptC, dif_pos hm]
    · refine (nextC V d c hD ⟨n + 1, h⟩ h0 k).trans ?_
      rw [runAcc, if_neg h0, EReal.coe_add, ptC, dif_pos hm]
      refine congrArg (· + _) ?_
      exact invC k n (Nat.lt_of_succ_lt h)

end Invariant

/-! ## From the blocks to the arrays -/

/-- The three result arrays, slice by slice: the sum over the slice's 16 tiles. -/
def arrS (i : S2x16x512.Idx) : EReal := ((∑ j : Fin 16, tileS d x (tile (i 0) j) (i 1) (i 2) : ℝ) : EReal)
def arrQ (i : S2x16x512.Idx) : EReal := ((∑ j : Fin 16, tileQ d x (tile (i 0) j) (i 1) (i 2) : ℝ) : EReal)
def arrC (i : S2x16x1.Idx) : EReal := ((∑ j : Fin 16, tileC d (tile (i 0) j) (i 1) : ℝ) : EReal)

/-- The per-point sums over a group are the tiles' sums of that group. -/
theorem ptS_group (k : Fin 16) (q : Fin 512) (cc : Fin 2) :
    ∑ j : Fin 16, ptS d x k q (16 * cc.val + j.val) = ∑ j : Fin 16, tileS d x (tile cc j) k q :=
  Finset.sum_congr rfl fun j _ => by
    have hm : 16 * cc.val + j.val < 32 := by omega
    rw [ptS, dif_pos hm]; rfl
theorem ptQ_group (k : Fin 16) (q : Fin 512) (cc : Fin 2) :
    ∑ j : Fin 16, ptQ d x k q (16 * cc.val + j.val) = ∑ j : Fin 16, tileQ d x (tile cc j) k q :=
  Finset.sum_congr rfl fun j _ => by
    have hm : 16 * cc.val + j.val < 32 := by omega
    rw [ptQ, dif_pos hm]; rfl
theorem ptC_group (k : Fin 16) (cc : Fin 2) :
    ∑ j : Fin 16, ptC d k (16 * cc.val + j.val) = ∑ j : Fin 16, tileC d (tile cc j) k :=
  Finset.sum_congr rfl fun j _ => by
    have hm : 16 * cc.val + j.val < 32 := by omega
    rw [ptC, dif_pos hm]; rfl

section Arrays
variable (c : Dev nD)
  (hX : ∀ (p : Fin 65536) (q : Fin 512), (V c main_arg0 : S65536x512.Idx → EReal) (ix2 p q) = ((x p q : ℝ) : EReal))
  (hD : ∀ p : Fin 65536, ((V c main_v1 : S1x65536.Idx → BitVec 32) (ix2 (0 : Fin 1) p)).toInt = ((d p).val : Int))
include hX hD

/-- What a group's last point writes back is the group's slice of the sums array. -/
theorem flushedS (t : Fin cfg0.N) (hf : (cfg0.win 2).flush t = true) :
    (dat0 V c).flushed 2 t = ((cfg0.win 2).blk t).view.read (Elt Ideal) (arrS d x) := by
  have h15 : t.val % 16 = 15 := (flush0_2 t).mp hf
  have hN : t.val < 32 := (pt t).isLt
  obtain ⟨-, -, -, -, e0, e1, e2, -⟩ := idx_facts t
  show (cfg0.win 2).cut (grid0.coords t) ((dat0 V c).after 2 t) = _
  rw [after0_2]
  refine funext fun (y : S1x16x512.Idx) => ?_
  obtain ⟨u, k, q, rfl⟩ : ∃ (u : Fin 1) (k : Fin 16) (q : Fin 512), y = ix3 u k q := ⟨y 0, y 1, y 2, eq_ix3 y⟩
  obtain rfl : u = 0 := Subsingleton.elim _ _
  rw [View.read_apply]
  have hemb : ((cfg0.win 2).blk t).view.emb (ix3 (0 : Fin 1) k q) = (ix3 (⟨t.val / 16, by omega⟩ : Fin 2) k q : S2x16x512.Idx) := by
    funext a; apply Fin.ext
    match a with
    | ⟨0, _⟩ => show win0_2.index t (0 : Fin 3) * 1 + 1 * 0 = t.val / 16; rw [e0]; omega
    | ⟨1, _⟩ => show win0_2.index t (1 : Fin 3) * 16 + 1 * k.val = k.val; rw [e1]; omega
    | ⟨2, _⟩ => show win0_2.index t (2 : Fin 3) * 512 + 1 * q.val = q.val; rw [e2]; omega
  rw [hemb]
  show ((outsAt0 V c t.val t.isLt).1 : S1x16x512.Idx → EReal) (ix3 (0 : Fin 1) k q)
    = ((∑ j : Fin 16, tileS d x (tile (⟨t.val / 16, by omega⟩ : Fin 2) j) k q : ℝ) : EReal)
  rw [invS V d x c hX hD k q t.val t.isLt, ← ptS_group d x k q ⟨t.val / 16, by omega⟩]
  have ht : t.val = 16 * (t.val / 16) + 15 := by omega
  have hlast := runAcc_last (ptS d x k q) (t.val / 16)
  rw [← ht] at hlast
  exact congrArg _ hlast
theorem flushedQ (t : Fin cfg0.N) (hf : (cfg0.win 3).flush t = true) :
    (dat0 V c).flushed 3 t = ((cfg0.win 3).blk t).view.read (Elt Ideal) (arrQ d x) := by
  have h15 : t.val % 16 = 15 := (flush0_3 t).mp hf
  have hN : t.val < 32 := (pt t).isLt
  obtain ⟨-, -, -, -, -, -, -, e0, e1, e2, -⟩ := idx_facts t
  show (cfg0.win 3).cut (grid0.coords t) ((dat0 V c).after 3 t) = _
  rw [after0_3]
  refine funext fun (y : S1x16x512.Idx) => ?_
  obtain ⟨u, k, q, rfl⟩ : ∃ (u : Fin 1) (k : Fin 16) (q : Fin 512), y = ix3 u k q := ⟨y 0, y 1, y 2, eq_ix3 y⟩
  obtain rfl : u = 0 := Subsingleton.elim _ _
  rw [View.read_apply]
  have hemb : ((cfg0.win 3).blk t).view.emb (ix3 (0 : Fin 1) k q) = (ix3 (⟨t.val / 16, by omega⟩ : Fin 2) k q : S2x16x512.Idx) := by
    funext a; apply Fin.ext
    match a with
    | ⟨0, _⟩ => show win0_3.index t (0 : Fin 3) * 1 + 1 * 0 = t.val / 16; rw [e0]; omega
    | ⟨1, _⟩ => show win0_3.index t (1 : Fin 3) * 16 + 1 * k.val = k.val; rw [e1]; omega
    | ⟨2, _⟩ => show win0_3.index t (2 : Fin 3) * 512 + 1 * q.val = q.val; rw [e2]; omega
  rw [hemb]
  show ((outsAt0 V c t.val t.isLt).2.1 : S1x16x512.Idx → EReal) (ix3 (0 : Fin 1) k q)
    = ((∑ j : Fin 16, tileQ d x (tile (⟨t.val / 16, by omega⟩ : Fin 2) j) k q : ℝ) : EReal)
  rw [invQ V d x c hX hD k q t.val t.isLt, ← ptQ_group d x k q ⟨t.val / 16, by omega⟩]
  have ht : t.val = 16 * (t.val / 16) + 15 := by omega
  have hlast := runAcc_last (ptQ d x k q) (t.val / 16)
  rw [← ht] at hlast
  exact congrArg _ hlast
omit hX in
theorem flushedC (t : Fin cfg0.N) (hf : (cfg0.win 4).flush t = true) :
    (dat0 V c).flushed 4 t = ((cfg0.win 4).blk t).view.read (Elt Ideal) (arrC d) := by
  have h15 : t.val % 16 = 15 := (flush0_4 t).mp hf
  have hN : t.val < 32 := (pt t).isLt
  obtain ⟨-, -, -, -, -, -, -, -, -, -, e0, e1, e2⟩ := idx_facts t
  show (cfg0.win 4).cut (grid0.coords t) ((dat0 V c).after 4 t) = _
  rw [after0_4]
  refine funext fun (y : S1x16x1.Idx) => ?_
  obtain ⟨u, k, q, rfl⟩ : ∃ (u : Fin 1) (k : Fin 16) (q : Fin 1), y = ix3 u k q := ⟨y 0, y 1, y 2, eq_ix3 y⟩
  obtain rfl : u = 0 := Subsingleton.elim _ _
  obtain rfl : q = 0 := Subsingleton.elim _ _
  rw [View.read_apply]
  have hemb : ((cfg0.win 4).blk t).view.emb (ix3 (0 : Fin 1) k (0 : Fin 1)) = (ix3 (⟨t.val / 16, by omega⟩ : Fin 2) k (0 : Fin 1) : S2x16x1.Idx) := by
    funext a; apply Fin.ext
    match a with
    | ⟨0, _⟩ => show win0_4.index t (0 : Fin 3) * 1 + 1 * 0 = t.val / 16; rw [e0]; omega
    | ⟨1, _⟩ => show win0_4.index t (1 : Fin 3) * 16 + 1 * k.val = k.val; rw [e1]; omega
    | ⟨2, _⟩ => show win0_4.index t (2 : Fin 3) * 1 + 1 * 0 = 0; rw [e2]
  rw [hemb]
  show ((outsAt0 V c t.val t.isLt).2.2 : S1x16x1.Idx → EReal) (ix3 (0 : Fin 1) k (0 : Fin 1))
    = ((∑ j : Fin 16, tileC d (tile (⟨t.val / 16, by omega⟩ : Fin 2) j) k : ℝ) : EReal)
  rw [invC V d c hD k t.val t.isLt, ← ptC_group d k ⟨t.val / 16, by omega⟩]
  have ht : t.val = 16 * (t.val / 16) + 15 := by omega
  have hlast := runAcc_last (ptC d k) (t.val / 16)
  rw [← ht] at hlast
  exact congrArg _ hlast

end Arrays

/-! ## The blocks written back cover the arrays -/

/-- Every entry of slice cc lies in the block the group's last point writes back. -/
theorem coverS (i : S2x16x512.Idx) : ∃ t : Fin cfg0.N, (cfg0.win 2).flush t = true ∧ i ∈ ((cfg0.win 2).blk t).view.set := by
  have h0 : (i 0).val < 2 := (i 0).isLt
  have h1 : (i 1).val < 16 := (i 1).isLt
  have h2 : (i 2).val < 512 := (i 2).isLt
  obtain ⟨t, ht⟩ : ∃ t : Fin cfg0.N, t.val = 16 * (i 0).val + 15 := ⟨⟨16 * (i 0).val + 15, by rw [show cfg0.N = 32 from N_0]; omega⟩, rfl⟩
  obtain ⟨-, -, -, -, e0, e1, e2, -⟩ := idx_facts t
  refine ⟨t, (flush0_2 t).mpr (by omega), ?_⟩
  show i ∈ ((View.whole main_v2_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 16 ≤ (i 1).val ∧ (i 1).val < win0_2.index t (1 : Fin 3) * 16 + 16; rw [e1]; omega
  | ⟨2, _⟩ => show win0_2.index t (2 : Fin 3) * 512 ≤ (i 2).val ∧ (i 2).val < win0_2.index t (2 : Fin 3) * 512 + 512; rw [e2]; omega
theorem coverQ (i : S2x16x512.Idx) : ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 512 := (i 2).isLt
  obtain ⟨t, ht⟩ : ∃ t : Fin cfg0.N, t.val = 16 * (i 0).val + 15 := ⟨⟨16 * (i 0).val + 15, by rw [show cfg0.N = 32 from N_0]; omega⟩, rfl⟩
  obtain ⟨-, -, -, -, -, -, -, e0, e1, e2, -⟩ := idx_facts t
  refine ⟨t, (flush0_3 t).mpr (by omega), ?_⟩
  show i ∈ ((View.whole main_v2_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 16 ≤ (i 1).val ∧ (i 1).val < win0_3.index t (1 : Fin 3) * 16 + 16; rw [e1]; omega
  | ⟨2, _⟩ => show win0_3.index t (2 : Fin 3) * 512 ≤ (i 2).val ∧ (i 2).val < win0_3.index t (2 : Fin 3) * 512 + 512; rw [e2]; omega
theorem coverC (i : S2x16x1.Idx) : ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 1 := (i 2).isLt
  obtain ⟨t, ht⟩ : ∃ t : Fin cfg0.N, t.val = 16 * (i 0).val + 15 := ⟨⟨16 * (i 0).val + 15, by rw [show cfg0.N = 32 from N_0]; omega⟩, rfl⟩
  obtain ⟨-, -, -, -, -, -, -, -, -, -, e0, e1, e2⟩ := idx_facts t
  refine ⟨t, (flush0_4 t).mpr (by omega), ?_⟩
  show i ∈ ((View.whole main_v2_2).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 16 ≤ (i 1).val ∧ (i 1).val < win0_4.index t (1 : Fin 3) * 16 + 16; rw [e1]; omega
  | ⟨2, _⟩ => show win0_4.index t (2 : Fin 3) * 1 ≤ (i 2).val ∧ (i 2).val < win0_4.index t (2 : Fin 3) * 1 + 1; rw [e2]; omega

/-! ## The three result arrays -/

/-- Slice cc of the sums array. -/
theorem sum_arr (c : Dev nD)
    (hX : ∀ (p : Fin 65536) (q : Fin 512), (V c main_arg0 : S65536x512.Idx → EReal) (ix2 p q) = ((x p q : ℝ) : EReal))
    (hD : ∀ p : Fin 65536, ((V c main_v1 : S1x65536.Idx → BitVec 32) (ix2 (0 : Fin 1) p)).toInt = ((d p).val : Int))
    (cc : Fin 2) (k : Fin 16) (q : Fin 512) :
    ((dat0 (F := Ideal) V c).arrAt 2 cfg0.N : S2x16x512.Idx → EReal) (ix3 cc k q)
      = ((∑ j : Fin 16, tileS d x (tile cc j) k q : ℝ) : EReal) := by
  have hfin : (dat0 (F := Ideal) V c).arrAt 2 cfg0.N = arrS d x :=
    (dat0 (F := Ideal) V c).arrAt_eq_of_cover 2 (arrS d x) (fun t hf => flushedS V d x c hX hD t hf) (coverS)
  exact (congrFun hfin (ix3 cc k q)).trans rfl

/-- Slice cc of the sums-of-squares array. -/
theorem sumsq_arr (c : Dev nD)
    (hX : ∀ (p : Fin 65536) (q : Fin 512), (V c main_arg0 : S65536x512.Idx → EReal) (ix2 p q) = ((x p q : ℝ) : EReal))
    (hD : ∀ p : Fin 65536, ((V c main_v1 : S1x65536.Idx → BitVec 32) (ix2 (0 : Fin 1) p)).toInt = ((d p).val : Int))
    (cc : Fin 2) (k : Fin 16) (q : Fin 512) :
    ((dat0 (F := Ideal) V c).arrAt 3 cfg0.N : S2x16x512.Idx → EReal) (ix3 cc k q)
      = ((∑ j : Fin 16, tileQ d x (tile cc j) k q : ℝ) : EReal) := by
  have hfin : (dat0 (F := Ideal) V c).arrAt 3 cfg0.N = arrQ d x :=
    (dat0 (F := Ideal) V c).arrAt_eq_of_cover 3 (arrQ d x) (fun t hf => flushedQ V d x c hX hD t hf) (coverQ)
  exact (congrFun hfin (ix3 cc k q)).trans rfl

/-- Slice cc of the counts array. -/
theorem cnt_arr (c : Dev nD)
    (hX : ∀ (p : Fin 65536) (q : Fin 512), (V c main_arg0 : S65536x512.Idx → EReal) (ix2 p q) = ((x p q : ℝ) : EReal))
    (hD : ∀ p : Fin 65536, ((V c main_v1 : S1x65536.Idx → BitVec 32) (ix2 (0 : Fin 1) p)).toInt = ((d p).val : Int))
    (cc : Fin 2) (k : Fin 16) :
    ((dat0 (F := Ideal) V c).arrAt 4 cfg0.N : S2x16x1.Idx → EReal) (ix3 cc k (0 : Fin 1))
      = ((∑ j : Fin 16, tileC d (tile cc j) k : ℝ) : EReal) := by
  have hfin : (dat0 (F := Ideal) V c).arrAt 4 cfg0.N = arrC d :=
    (dat0 (F := Ideal) V c).arrAt_eq_of_cover 4 (arrC d) (fun t hf => flushedC V d c hD t hf) (coverC)
  exact (congrFun hfin (ix3 cc k (0 : Fin 1))).trans rfl

end Cert.KernelIdeal.Stats

end
-- ==== Proof.KNorm.lean ====
/-
  The normalising region's result array, for real inputs.

  Point t handles rows 2048·t … 2048·t + 2047. From the tile's domain ids it builds the 0/1 matrix "row r has domain k"
  and contracts it, over the 16 domains, with the multiplicative and the additive table: for a row of domain k that
  picks row k of each table (the other 15 products are 0; the split of a table into its value and value - value
  contributes nothing for real tables). The block written back is x · (picked scale) + (picked shift), and the 32
  blocks tile the result array.
-/
import proofs.«416317_j21861383536853_3_alg».proof.Proof.Gen.KernelIdeal.Frame
import proofs.«416317_j21861383536853_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Norm

open Cert.KernelIdeal Cert.KernelIdeal.Gen Idealize.ShloMosaic Idealize.ShloMosaic.TcCoe Idealize.SL.Sem Idealize.ShloMosaic.ValueIdx DomNorm
open Idealize.ShloMosaic.Pipeline (Dat)

variable (V : (c : Dev nD) → (b : Ref sig .tc) → Buf (Elt Ideal) ((c : Thread nD τ).loc b))
variable (d : Fin 65536 → Fin 16) (x : Fin 65536 → Fin 512 → ℝ) (sc sh : Fin 16 → Fin 512 → ℝ)

/-! ## The matrix product at an index -/

/-- The left operand's contracted axis reads the contraction position. -/
theorem lhs_0 (i : S2048x512.Idx) (q : dot_S16x2048_S16x512_S2048x512_0_0_1_1_n_n.contr.Idx) :
    (dot_S16x2048_S16x512_S2048x512_0_0_1_1_n_n.lhsIdx i q 0).val = (q ⟨0, by decide⟩).val :=
  dot_S16x2048_S16x512_S2048x512_0_0_1_1_n_n.lhsIdx_val_of_single rfl i q
/-- The left operand's free axis reads the result's row. -/
theorem lhs_1 (i : S2048x512.Idx) (q : dot_S16x2048_S16x512_S2048x512_0_0_1_1_n_n.contr.Idx) :
    (dot_S16x2048_S16x512_S2048x512_0_0_1_1_n_n.lhsIdx i q 1).val = (i 0).val := by
  unfold DotDims.lhsIdx
  rw [dif_neg (show ¬(1 : Fin S16x2048.rank) ∈ dot_S16x2048_S16x512_S2048x512_0_0_1_1_n_n.lhsBatch by decide),
    dif_pos (show (1 : Fin S16x2048.rank) ∈ dot_S16x2048_S16x512_S2048x512_0_0_1_1_n_n.lhsNonContracting by decide)]
  rfl
/-- The right operand's contracted axis reads the contraction position. -/
theorem rhs_0 (i : S2048x512.Idx) (q : dot_S16x2048_S16x512_S2048x512_0_0_1_1_n_n.contr.Idx) :
    (dot_S16x2048_S16x512_S2048x512_0_0_1_1_n_n.rhsIdx i q 0).val = (q ⟨0, by decide⟩).val :=
  dot_S16x2048_S16x512_S2048x512_0_0_1_1_n_n.rhsIdx_val_of_single rfl i q
/-- The right operand's free axis reads the result's column. -/
theorem rhs_1 (i : S2048x512.Idx) (q : dot_S16x2048_S16x512_S2048x512_0_0_1_1_n_n.contr.Idx) :
    (dot_S16x2048_S16x512_S2048x512_0_0_1_1_n_n.rhsIdx i q 1).val = (i 1).val := by
  unfold DotDims.rhsIdx
  rw [dif_neg (show ¬(1 : Fin S16x512.rank) ∈ dot_S16x2048_S16x512_S2048x512_0_0_1_1_n_n.rhsBatch by decide),
    dif_pos (show (1 : Fin S16x512.rank) ∈ dot_S16x2048_S16x512_S2048x512_0_0_1_1_n_n.rhsNonContracting by decide)]
  rfl

/-- The matrix product against a zero accumulator, at row r and column q: the sum over the 16 domains of the
    left operand's (k, r) entry times the right operand's (k, q) entry. -/
theorem mm_apply (A : FVec Ideal S16x2048 .bf16) (B : FVec Ideal S16x512 .bf16) (r : Fin 2048) (q : Fin 512) :
    matmul dot_S16x2048_S16x512_S2048x512_0_0_1_1_n_n none A B (constant (F := Ideal) S2048x512 .f32 0x00000000#32) (ix2 r q)
      = ∑ k : Fin 16, A (ix2 k r) * B (ix2 k q) := by
  simp only [matmul]
  rw [Ideal.matmul_constant_zero_apply,
    ← Equiv.sum_comp (contrEquiv1 dot_S16x2048_S16x512_S2048x512_0_0_1_1_n_n 16 rfl rfl).symm]
  refine Finset.sum_congr rfl fun k _ => ?_
  have hk := contrEquiv1_symm_val dot_S16x2048_S16x512_S2048x512_0_0_1_1_n_n 16 rfl rfl k
  have el : dot_S16x2048_S16x512_S2048x512_0_0_1_1_n_n.lhsIdx (ix2 r q)
      ((contrEquiv1 dot_S16x2048_S16x512_S2048x512_0_0_1_1_n_n 16 rfl rfl).symm k) = ix2 k r := funext fun a => Fin.ext (by
    match a with
    | ⟨0, _⟩ => exact (lhs_0 _ _).trans hk
    | ⟨1, _⟩ => exact lhs_1 _ _)
  have er : dot_S16x2048_S16x512_S2048x512_0_0_1_1_n_n.rhsIdx (ix2 r q)
      ((contrEquiv1 dot_S16x2048_S16x512_S2048x512_0_0_1_1_n_n 16 rfl rfl).symm k) = ix2 k q := funext fun a => Fin.ext (by
    match a with
    | ⟨0, _⟩ => exact (rhs_0 _ _).trans hk
    | ⟨1, _⟩ => exact rhs_1 _ _)
  rw [el, er]

/-! ## The 0/1 matrix of a tile's domain ids -/

/-- A 32-bit word that reads, signed, as a domain number below 16 is that number's word. -/
theorem word_eq_ofNat (w : BitVec 32) (d : Fin 16) (h : w.toInt = (d.val : Int)) : w = BitVec.ofNat 32 d.val := by
  have h1 : BitVec.ofInt 32 w.toInt = w := BitVec.ofInt_toInt
  rw [← h1, h]
  rfl

/-- Among the 16 domain numbers, the comparison word widened and read signed is 1 on equal numbers and 0 otherwise. -/
theorem cmp_toInt : ∀ k d : Fin 16,
    ((IntOp.cmpi .eq (BitVec.ofNat 32 k.val) (BitVec.ofNat 32 d.val)).setWidth 32).toInt = if d = k then 1 else 0 := by
  decide +kernel

/-- The 0/1 entry: the row number k compared with a word holding the domain d, widened and read signed, is 1 when d = k and 0 otherwise. -/
theorem word_ind (w : BitVec 32) (k d : Fin 16) (h : w.toInt = (d.val : Int)) :
    FloatOps.sitofp (F := Ideal) .f32 ((IntOp.cmpi .eq (BitVec.ofNat 32 k.val) w).setWidth 32)
      = (((if d = k then (1 : ℝ) else 0) : ℝ) : EReal) := by
  rw [word_eq_ofNat w d h]
  show ((((IntOp.cmpi .eq (BitVec.ofNat 32 k.val) (BitVec.ofNat 32 d.val)).setWidth 32).toInt : ℝ) : EReal) = _
  rw [cmp_toInt k d]
  split_ifs <;> simp

/-- The 0/1 matrix of a tile's domain ids, as the body builds it: the row number compared with the ids repeated down the
    rows, widened, read signed. -/
abbrev onehot (x1 : Vec Ideal S1x2048 .i32) : FVec Ideal S16x2048 .bf16 :=
  truncf .bf16 (sitofp .f32 (extui 32 (cmpi .eq (iota .tc S16x2048 32 [0] iota_S16x2048_d0_w32)
    (broadcastTo S16x2048 (shapeCast S1x2048 x1 shapeCasts_S1x2048_S1x2048) broadcasts_S1x2048_S16x2048)) natLt_1_32)
    : FVec Ideal S16x2048 .f32) bitsLt_bf16_f32

/-- Its entry at domain k and row r: 1 when row r has domain k, 0 otherwise. -/
theorem ind_apply (x1 : Vec Ideal S1x2048 .i32) (dr : Fin 2048 → Fin 16)
    (h : ∀ r : Fin 2048, (x1 (ix2 (0 : Fin 1) r)).toInt = ((dr r).val : Int)) (k : Fin 16) (r : Fin 2048) :
    onehot x1 (ix2 k r) = (((if dr r = k then (1 : ℝ) else 0) : ℝ) : EReal) := by
  unfold onehot
  rw [truncf_apply, sitofp_apply, extui_apply]
  show FloatOps.sitofp (F := Ideal) .f32 ((IntOp.cmpi .eq (iota .tc S16x2048 32 [0] iota_S16x2048_d0_w32 (ix2 k r))
      (broadcastTo S16x2048 (shapeCast S1x2048 x1 shapeCasts_S1x2048_S1x2048) broadcasts_S1x2048_S16x2048 (ix2 k r))).setWidth 32) = _
  rw [iota_single_apply, shapeCast_self,
    broadcastTo_apply x1 broadcasts_S1x2048_S16x2048 (ix2 k r) (ix2 (0 : Fin 1) r)
      (fun a => by match a with | ⟨0, _⟩ => rfl | ⟨1, _⟩ => rfl)]
  exact word_ind _ k (dr r) (h r)

/-! ## The body's arithmetic at an index -/

/-- Contracting the 0/1 matrix with a real table picks the table's row of the row's own domain. -/
theorem pick_apply (x1 : Vec Ideal S1x2048 .i32) (dr : Fin 2048 → Fin 16)
    (h1 : ∀ r : Fin 2048, (x1 (ix2 (0 : Fin 1) r)).toInt = ((dr r).val : Int))
    (T : Vec Ideal S16x512 .f32) (tb : Fin 16 → Fin 512 → ℝ) (hT : ∀ (k : Fin 16) (q : Fin 512), T (ix2 k q) = ((tb k q : ℝ) : EReal))
    (r : Fin 2048) (q : Fin 512) :
    matmul dot_S16x2048_S16x512_S2048x512_0_0_1_1_n_n none (onehot x1)
        (truncf .bf16 (shapeCast S16x512 T shapeCasts_S16x512_S16x512 : FVec Ideal S16x512 .f32) bitsLt_bf16_f32 : FVec Ideal S16x512 .bf16)
        (constant (F := Ideal) S2048x512 .f32 0x00000000#32) (ix2 r q)
      = ((tb (dr r) q : ℝ) : EReal) := by
  rw [mm_apply]
  have e : ∀ k : Fin 16, onehot x1 (ix2 k r)
      * (truncf .bf16 (shapeCast S16x512 T shapeCasts_S16x512_S16x512 : FVec Ideal S16x512 .f32) bitsLt_bf16_f32 : FVec Ideal S16x512 .bf16) (ix2 k q)
      = (((if dr r = k then (1 : ℝ) else 0) * tb k q : ℝ) : EReal) := fun k => by
    rw [ind_apply x1 dr h1 k r, truncf_apply, shapeCast_self, hT, EReal.coe_mul]
  rw [Finset.sum_congr rfl fun k _ => e k, DomNorm.coe_sum]
  congr 1
  simp [Finset.sum_ite_eq]

/-- Contracting it with a real table's difference from itself gives zero. -/
theorem resid_apply (x1 : Vec Ideal S1x2048 .i32) (dr : Fin 2048 → Fin 16)
    (h1 : ∀ r : Fin 2048, (x1 (ix2 (0 : Fin 1) r)).toInt = ((dr r).val : Int))
    (T : Vec Ideal S16x512 .f32) (tb : Fin 16 → Fin 512 → ℝ) (hT : ∀ (k : Fin 16) (q : Fin 512), T (ix2 k q) = ((tb k q : ℝ) : EReal))
    (r : Fin 2048) (q : Fin 512) :
    matmul dot_S16x2048_S16x512_S2048x512_0_0_1_1_n_n none (onehot x1)
        (truncf .bf16 (subf (shapeCast S16x512 T shapeCasts_S16x512_S16x512 : FVec Ideal S16x512 .f32)
          (shapeCast S16x512 T shapeCasts_S16x512_S16x512 : FVec Ideal S16x512 .f32)) bitsLt_bf16_f32 : FVec Ideal S16x512 .bf16)
        (constant (F := Ideal) S2048x512 .f32 0x00000000#32) (ix2 r q)
      = 0 := by
  rw [mm_apply]
  refine Finset.sum_eq_zero fun k _ => ?_
  rw [truncf_apply, subf_apply, shapeCast_self, hT, DomNorm.sub_self_coe, mul_zero]

/-- THE BODY'S ARITHMETIC AT AN INDEX: for a real tile, real tables and domain ids below 16, the stored value at row r,
    column q is the tile's entry times the multiplicative table's row of the row's domain, plus the additive table's. -/
theorem pay_apply (x0 : Vec Ideal S2048x512 .f32) (x1 : Vec Ideal S1x2048 .i32) (x2 x3 : Vec Ideal S16x512 .f32)
    (xr : Fin 2048 → Fin 512 → ℝ) (dr : Fin 2048 → Fin 16) (sc sh : Fin 16 → Fin 512 → ℝ)
    (h0 : ∀ (r : Fin 2048) (q : Fin 512), x0 (ix2 r q) = ((xr r q : ℝ) : EReal))
    (h1 : ∀ r : Fin 2048, (x1 (ix2 (0 : Fin 1) r)).toInt = ((dr r).val : Int))
    (h2 : ∀ (k : Fin 16) (q : Fin 512), x2 (ix2 k q) = ((sc k q : ℝ) : EReal))
    (h3 : ∀ (k : Fin 16) (q : Fin 512), x3 (ix2 k q) = ((sh k q : ℝ) : EReal))
    (r : Fin 2048) (q : Fin 512) :
    k1_pay1 (F := Ideal) x1 x2 x3 x0 (ix2 r q) = ((xr r q * sc (dr r) q + sh (dr r) q : ℝ) : EReal) := by
  unfold k1_pay1
  rw [addf_apply, mulf_apply, addf_apply, addf_apply]
  refine (congrArg₂ (· + ·) (congrArg₂ (· * ·) (h0 r q)
      (congrArg₂ (· + ·) (pick_apply x1 dr h1 x2 sc h2 r q) (resid_apply x1 dr h1 x2 sc h2 r q)))
      (congrArg₂ (· + ·) (pick_apply x1 dr h1 x3 sh h3 r q) (resid_apply x1 dr h1 x3 sh h3 r q))).trans ?_
  rw [add_zero, add_zero, ← EReal.coe_mul, ← EReal.coe_add]

/-! ## The windows' blocks -/

theorem hz : (![0, 0] : Fin 2 → Nat) = fun _ => 0 := funext fun a => by fin_cases a <;> rfl

/-- A grid point as a tile number. -/
abbrev tl (t : Fin cfg1.N) : Fin 32 := ⟨t.val, lt_of_lt_of_eq t.isLt N_1⟩

/-- The input windows' blocks at a point, at their literal types. -/
abbrev xblk (c : Dev nD) (t : Fin cfg1.N) : Vec Ideal S2048x512 .f32 := iblk1 (F := Ideal) V c 0 t
abbrev dblk (c : Dev nD) (t : Fin cfg1.N) : Vec Ideal S1x2048 .i32 := iblk1 (F := Ideal) V c 1 t
abbrev scblk (c : Dev nD) (t : Fin cfg1.N) : Vec Ideal S16x512 .f32 := iblk1 (F := Ideal) V c 2 t
abbrev shblk (c : Dev nD) (t : Fin cfg1.N) : Vec Ideal S16x512 .f32 := iblk1 (F := Ideal) V c 3 t

/-- The printed index maps over the grid: the row windows move one block per point along their long axis, the
    tables stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The tile of x at point t is rows 2048·t … 2048·t + 2047 of x. -/
theorem xblk_apply (c : Dev nD) (t : Fin cfg1.N) (r : Fin 2048) (q : Fin 512) :
    xblk V c t (ix2 r q) = (V c main_arg0 : S65536x512.Idx → EReal) (ix2 (row (tl t) r) q) := by
  obtain ⟨e0, e1, -⟩ := idx_facts t
  unfold xblk iblk1
  rw [View.read_apply]
  show (V c main_arg0 : S65536x512.Idx → EReal) _ = _
  congr 1
  funext a
  apply Fin.ext
  match a with
  | ⟨0, _⟩ => show win1_0.index t (0 : Fin 2) * 2048 + 1 * r.val = 2048 * t.val + r.val; rw [e0]; omega
  | ⟨1, _⟩ => show win1_0.index t (1 : Fin 2) * 512 + 1 * q.val = q.val; rw [e1]; omega

/-- The tile of domain ids at point t is entries 2048·t … 2048·t + 2047 of the ids' row. -/
theorem dblk_apply (c : Dev nD) (t : Fin cfg1.N) (r : Fin 2048) :
    dblk V c t (ix2 (0 : Fin 1) r) = (V c main_v1 : S1x65536.Idx → BitVec 32) (ix2 (0 : Fin 1) (row (tl t) r)) := by
  obtain ⟨-, -, e0, e1, -⟩ := idx_facts t
  unfold dblk iblk1
  rw [View.read_apply]
  show (V c main_v1 : S1x65536.Idx → BitVec 32) _ = _
  congr 1
  funext a
  apply Fin.ext
  match a with
  | ⟨0, _⟩ => show win1_1.index t (0 : Fin 2) * 1 + 1 * 0 = 0; rw [e0]
  | ⟨1, _⟩ => show win1_1.index t (1 : Fin 2) * 2048 + 1 * r.val = 2048 * t.val + r.val; rw [e1]; omega

/-- The multiplicative table's block at any point is the whole table. -/
theorem scblk_apply (c : Dev nD) (t : Fin cfg1.N) (k : Fin 16) (q : Fin 512) :
    scblk V c t (ix2 k q) = (V c main_v17 : S16x512.Idx → EReal) (ix2 k q) := by
  obtain ⟨-, -, -, -, e0, e1, -⟩ := idx_facts t
  unfold scblk iblk1
  rw [View.read_apply]
  show (V c main_v17 : S16x512.Idx → EReal) _ = _
  congr 1
  funext a
  apply Fin.ext
  match a with
  | ⟨0, _⟩ => show win1_2.index t (0 : Fin 2) * 16 + 1 * k.val = k.val; rw [e0]; omega
  | ⟨1, _⟩ => show win1_2.index t (1 : Fin 2) * 512 + 1 * q.val = q.val; rw [e1]; omega

/-- The additive table's block at any point is the whole table. -/
theorem shblk_apply (c : Dev nD) (t : Fin cfg1.N) (k : Fin 16) (q : Fin 512) :
    shblk V c t (ix2 k q) = (V c main_v20 : S16x512.Idx → EReal) (ix2 k q) := by
  obtain ⟨-, -, -, -, -, -, e0, e1, -⟩ := idx_facts t
  unfold shblk iblk1
  rw [View.read_apply]
  show (V c main_v20 : S16x512.Idx → EReal) _ = _
  congr 1
  funext a
  apply Fin.ext
  match a with
  | ⟨0, _⟩ => show win1_3.index t (0 : Fin 2) * 16 + 1 * k.val = k.val; rw [e0]; omega
  | ⟨1, _⟩ => show win1_3.index t (1 : Fin 2) * 512 + 1 * q.val = q.val; rw [e1]; omega

/-- The result array as one function of the inputs: entry (p, q) is x · scale + shift read at row p's domain. -/
def G : S65536x512.Idx → EReal := fun i =>
  ((x ⟨(i 0).val, idx2_lt0 i⟩ ⟨(i 1).val, idx2_lt1 i⟩ * sc (d ⟨(i 0).val, idx2_lt0 i⟩) ⟨(i 1).val, idx2_lt1 i⟩
    + sh (d ⟨(i 0).val, idx2_lt0 i⟩) ⟨(i 1).val, idx2_lt1 i⟩ : ℝ) : EReal)

theorem G_ix2 (p : Fin 65536) (q : Fin 512) :
    G d x sc sh (ix2 p q) = ((x p q * sc (d p) q + sh (d p) q : ℝ) : EReal) := rfl

section Region
variable (c : Dev nD)
variable (hX : ∀ (p : Fin 65536) (q : Fin 512), (V c main_arg0 : S65536x512.Idx → EReal) (ix2 p q) = ((x p q : ℝ) : EReal))
variable (hD : ∀ p : Fin 65536, ((V c main_v1 : S1x65536.Idx → BitVec 32) (ix2 (0 : Fin 1) p)).toInt = ((d p).val : Int))
variable (hSc : ∀ (k : Fin 16) (q : Fin 512), (V c main_v17 : S16x512.Idx → EReal) (ix2 k q) = ((sc k q : ℝ) : EReal))
variable (hSh : ∀ (k : Fin 16) (q : Fin 512), (V c main_v20 : S16x512.Idx → EReal) (ix2 k q) = ((sh k q : ℝ) : EReal))
include hX hD hSc hSh

/-- What the body stores at point t, as a function of the block's index: the result function at the tile's rows. -/
theorem stored_eq (t : Fin cfg1.N) :
    k1_pay1 (F := Ideal) (dblk V c t) (scblk V c t) (shblk V c t) (xblk V c t)
      = fun j : S2048x512.Idx => G d x sc sh (ix2 (row (tl t) ⟨(j 0).val, idx2_lt0 j⟩) ⟨(j 1).val, idx2_lt1 j⟩) := by
  funext j
  obtain ⟨r, q, rfl⟩ : ∃ (r : Fin 2048) (q : Fin 512), j = ix2 r q := ⟨j 0, j 1, eq_ix2 j⟩
  refine (pay_apply (xblk V c t) (dblk V c t) (scblk V c t) (shblk V c t)
    (fun r q => x (row (tl t) r) q) (fun r => d (row (tl t) r)) sc sh
    (fun r q => (xblk_apply V c t r q).trans (hX _ _))
    (fun r => (congrArg BitVec.toInt (dblk_apply V c t r)).trans (hD _))
    (fun k q => (scblk_apply V c t k q).trans (hSc k q))
    (fun k q => (shblk_apply V c t k q).trans (hSh k q)) r q).trans ?_
  rfl

/-- WHAT POINT t WRITES BACK is block t of the result function. -/
theorem flushed_eq (t : Fin cfg1.N) :
    (dat1 (F := Ideal) V c).flushed 4 t = ((cfg1.win 4).blk t).view.read (Elt Ideal) (G d x sc sh) := by
  show (cfg1.win 4).cut (grid1.coords t) ((dat1 (F := Ideal) V c).after 4 t) = _
  rw [after1_4]
  unfold out1_4
  rw [View.canon_unit_zero hz]
  simp only [View.ld_unit_zero (S := S2048x512) hz, View.ld_unit_zero (S := S1x2048) hz, View.ld_unit_zero (S := S16x512) hz]
  obtain ⟨-, -, -, -, -, -, -, -, e0, e1⟩ := idx_facts t
  funext j
  show k1_pay1 (F := Ideal) (dblk V c t) (scblk V c t) (shblk V c t) (xblk V c t) j = G d x sc sh (((cfg1.win 4).blk t).view.emb j)
  rw [stored_eq V d x sc sh c hX hD hSc hSh t]
  show G d x sc sh _ = G d x sc sh _
  congr 1
  funext a
  apply Fin.ext
  match a with
  | ⟨0, _⟩ => show 2048 * t.val + (j 0).val = win1_4.index t (0 : Fin 2) * 2048 + 1 * (j 0).val; rw [e0]; omega
  | ⟨1, _⟩ => show (j 1).val = win1_4.index t (1 : Fin 2) * 512 + 1 * (j 1).val; rw [e1]; omega

end Region

/-! ## From the blocks to the array -/

/-- An index of the array is in point t's block iff each coordinate is in the block's range on its axis. -/
theorem mem_blk (t : Fin cfg1.N) (i : S65536x512.Idx) :
    i ∈ ((cfg1.win 4).blk t).view.set ↔ ∀ a : Fin 2, win1_4.index t a * S2048x512.size a ≤ (i a).val
      ∧ (i a).val < win1_4.index t a * S2048x512.size a + S2048x512.size a := by
  show i ∈ ((View.whole main_v21).slice (win1_4.rect t)).set ↔ _
  rw [View.set_slice_whole, Rect.mem_set_unit]
  exact Iff.rfl

/-- Every index of the result array is in the block of the point that handles its row: row p is in tile p / 2048. -/
theorem cover (i : S65536x512.Idx) :
    ∃ t : Fin cfg1.N, (cfg1.win 4).flush t = true ∧ i ∈ ((cfg1.win 4).blk t).view.set := by
  have hi0 : (i 0).val < 65536 := idx2_lt0 i
  have hi1 : (i 1).val < 512 := idx2_lt1 i
  have hN : cfg1.N = 32 := N_1
  let t : Fin cfg1.N := ⟨(i 0).val / 2048, by rw [hN]; omega⟩
  obtain ⟨-, -, -, -, -, -, -, -, e0, e1⟩ := idx_facts t
  have ht : t.val = (i 0).val / 2048 := rfl
  refine ⟨t, flush1_4 t, ?_⟩
  rw [mem_blk]
  intro a
  match a with
  | ⟨0, _⟩ => show win1_4.index t (0 : Fin 2) * 2048 ≤ (i 0).val ∧ (i 0).val < win1_4.index t (0 : Fin 2) * 2048 + 2048; rw [e0, ht]; omega
  | ⟨1, _⟩ => show win1_4.index t (1 : Fin 2) * 512 ≤ (i 1).val ∧ (i 1).val < win1_4.index t (1 : Fin 2) * 512 + 512; rw [e1]; omega

/-- The result array at row p, column q. -/
theorem norm_arr (c : Dev nD)
    (hX : ∀ (p : Fin 65536) (q : Fin 512), (V c main_arg0 : S65536x512.Idx → EReal) (ix2 p q) = ((x p q : ℝ) : EReal))
    (hD : ∀ p : Fin 65536, ((V c main_v1 : S1x65536.Idx → BitVec 32) (ix2 (0 : Fin 1) p)).toInt = ((d p).val : Int))
    (hSc : ∀ (k : Fin 16) (q : Fin 512), (V c main_v17 : S16x512.Idx → EReal) (ix2 k q) = ((sc k q : ℝ) : EReal))
    (hSh : ∀ (k : Fin 16) (q : Fin 512), (V c main_v20 : S16x512.Idx → EReal) (ix2 k q) = ((sh k q : ℝ) : EReal))
    (p : Fin 65536) (q : Fin 512) :
    ((dat1 (F := Ideal) V c).arrAt 4 cfg1.N : S65536x512.Idx → EReal) (ix2 p q)
      = ((x p q * sc (d p) q + sh (d p) q : ℝ) : EReal) := by
  have h := (dat1 (F := Ideal) V c).arrAt_eq_of_cover 4 (G d x sc sh)
    (fun t _ => flushed_eq V d x sc sh c hX hD hSc hSh t) cover
  exact (congrFun h (ix2 p q)).trans (G_ix2 d x sc sh p q)

end Cert.KernelIdeal.Norm

end
-- ==== Proof.KValue.lean ====
/-
  The idealized kernel's result array, for real inputs and domain ids in range, is the specification.

  The ids pass the clamp unchanged; the statistics region leaves, per group, the 16 tile sums; the host arithmetic
  makes of them the specification's multiplicative and additive tables; the normalising region returns
  x · scale[d p] + shift[d p], which is (x - mean) · inv · gamma + beta over the reals.
-/
import proofs.«416317_j21861383536853_3_alg».proof.Proof.KBound
import proofs.«416317_j21861383536853_3_alg».proof.Proof.KStats
import proofs.«416317_j21861383536853_3_alg».proof.Proof.KNorm
import proofs.«416317_j21861383536853_3_alg».proof.Proof.KHost
import proofs.«416317_j21861383536853_3_alg».proof.Proof.Spec

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx DomNorm
open Idealize.ShloMosaic.Pipeline (Dat)

variable (m : (ℓ : Loc nD τ sig) → Buf (Elt Ideal) ℓ) (ρ : Dev nD → PrngReg)
variable (d : Fin 65536 → Fin 16) (x : Fin 65536 → Fin 512 → ℝ) (g b : Fin 16 → Fin 512 → ℝ)

/-- The result array at row p, column q. -/
theorem result_eq (c : Dev nD)
    (hX : ∀ (p : Fin 65536) (q : Fin 512), (m ((c : Thread nD τ).loc main_arg0) : S65536x512.Idx → EReal) (ix2 p q) = ((x p q : ℝ) : EReal))
    (hD : ∀ p : Fin 65536, ((m ((c : Thread nD τ).loc main_arg1) : S65536.Idx → BitVec 32) (ix1 p)).toInt = ((d p).val : Int))
    (hG : ∀ (k : Fin 16) (q : Fin 512), (m ((c : Thread nD τ).loc main_arg4) : S16x512.Idx → EReal) (ix2 k q) = ((g k q : ℝ) : EReal))
    (hB : ∀ (k : Fin 16) (q : Fin 512), (m ((c : Thread nD τ).loc main_arg5) : S16x512.Idx → EReal) (ix2 k q) = ((b k q : ℝ) : EReal))
    (p : Fin 65536) (q : Fin 512) :
    (W6 m ρ c (Proc.devRef .tc main_v21) : S65536x512.Idx → EReal) (ix2 p q) = ((y d x g b eps p q : ℝ) : EReal) := by
  have hX3 : ∀ (p : Fin 65536) (q : Fin 512), (V3 m ρ c main_arg0 : S65536x512.Idx → EReal) (ix2 p q) = ((x p q : ℝ) : EReal) :=
    fun p q => by rw [Bound.V3_arg0]; exact hX p q
  have hD3 : ∀ p : Fin 65536, ((V3 m ρ c main_v1 : S1x65536.Idx → BitVec 32) (ix2 (0 : Fin 1) p)).toInt = ((d p).val : Int) :=
    fun p => by rw [Bound.V3_v1]; exact Bound.clipD_toInt _ d hD p
  have hX5 : ∀ (p : Fin 65536) (q : Fin 512), (V5 m ρ c main_arg0 : S65536x512.Idx → EReal) (ix2 p q) = ((x p q : ℝ) : EReal) :=
    fun p q => by rw [Bound.V5_arg0]; exact hX p q
  have hD5 : ∀ p : Fin 65536, ((V5 m ρ c main_v1 : S1x65536.Idx → BitVec 32) (ix2 (0 : Fin 1) p)).toInt = ((d p).val : Int) :=
    fun p => by rw [Bound.V5_v1]; exact Bound.clipD_toInt _ d hD p
  have hS := Stats.sum_arr (V3 m ρ) d x c hX3 hD3
  have hQ := Stats.sumsq_arr (V3 m ρ) d x c hX3 hD3
  have hC := Stats.cnt_arr (V3 m ρ) d x c hX3 hD3
  have hSc : ∀ (k : Fin 16) (q : Fin 512), (V5 m ρ c main_v17 : S16x512.Idx → EReal) (ix2 k q) = ((scale d x g eps k q : ℝ) : EReal) :=
    fun k q => by rw [Bound.V5_v17]; exact HostAlg.scaleT_apply d x g _ _ _ _ hS hQ hC hG k q
  have hSh : ∀ (k : Fin 16) (q : Fin 512), (V5 m ρ c main_v20 : S16x512.Idx → EReal) (ix2 k q) = ((shift d x g b eps k q : ℝ) : EReal) :=
    fun k q => by rw [Bound.V5_v20]; exact HostAlg.shiftT_apply d x g b _ _ _ _ _ hS hQ hC hG hB k q
  rw [Bound.W6_res]
  exact (Norm.norm_arr (V5 m ρ) d x (scale d x g eps) (shift d x g b eps) c hX5 hD5 hSc hSh p q).trans
    (congrArg (fun r : ℝ => (r : EReal)) (y_eq d x g b eps p q).symm)

end Cert.KernelIdeal.KValue

end
-- ==== Proof.LibScatterRows.lean ====
/-
  A scatter of whole ROWS into a table, read at an index.

  Adding the rows of `upd : [P, C]` into a table `x : [N, C]` at a column of row numbers `idx : [P, 1]` — what jnp's
  `table.at[rows].add(upd)` lowers to — is a `stablehlo.scatter` whose update window is the updates' second axis, whose
  inserted (and scattered) operand axis is the table's first, with the index vector along the scatter indices' last axis (of
  extent one). Update element `(p, c)` lands at row `idx[p, 0]`, read as a SIGNED integer and NOT clamped, and at column `c`;
  when that row is outside `[0, N)` the update lands nowhere.
-/
import Idealize.ShloMosaic.PureOps
import Idealize.ShloMosaic.Lib.ValueIdx

noncomputable section

namespace ScatterRows

open Idealize.ShloMosaic Idealize.ShloMosaic.ValueIdx

/-- Those dimension numbers for a table `[N, C]`, scatter indices `[P, 1]` and updates `[P, C]`; their conditions `wf` are
    decided on a program's literal shapes. -/
abbrev rowDims (N C P : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

variable {N C P w : Nat} (wf : ScatterDims.WF ⟨2, ![N, C]⟩ ⟨2, ![P, 1]⟩ ⟨2, ![P, C]⟩ [1] [0] [0] 1)

/-- On the table's row axis the window starts at the row number `idx[p, 0]`, read signed. -/
theorem start_zero (j : (⟨2, ![P, C]⟩ : Shape).Idx) (idx : IVec ⟨2, ![P, 1]⟩ w) :
    (rowDims N C P wf).start j idx 0 = (idx (ix2 (j 0) (0 : Fin 1))).toInt := by
  unfold ScatterDims.start
  rw [dif_pos (show (0 : Fin 2) ∈ (rowDims N C P wf).scatterDimsToOperandDims from List.mem_singleton.mpr rfl)]
  have hsi : (rowDims N C P wf).siIdx j ⟨List.idxOf (0 : Fin 2) (rowDims N C P wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the window starts at zero: no scatter index names that axis. -/
theorem start_one (j : (⟨2, ![P, C]⟩ : Shape).Idx) (idx : IVec ⟨2, ![P, 1]⟩ w) :
    (rowDims N C P wf).start j idx 1 = 0 := by
  unfold ScatterDims.start
  rw [dif_neg (show ¬ (1 : Fin 2) ∈ (rowDims N C P wf).scatterDimsToOperandDims from
    (show ¬ (1 : Fin 2) ∈ ([0] : List (Fin 2)) by decide))]

/-- The row axis is inserted: the window has no extent along it. -/
theorem window_zero (j : (⟨2, ![P, C]⟩ : Shape).Idx) : (rowDims N C P wf).window j 0 = 0 := by
  unfold ScatterDims.window
  rw [dif_neg (show ¬ (0 : Fin 2) ∈ (rowDims N C P wf).sKept from
    (show ¬ (0 : Fin 2) ∈ ([1] : List (Fin 2)) by decide))]

/-- The column axis carries the update's own column. -/
theorem window_one (j : (⟨2, ![P, C]⟩ : Shape).Idx) : (rowDims N C P wf).window j 1 = (j 1).val := by
  unfold ScatterDims.window
  rw [dif_pos (show (1 : Fin 2) ∈ (rowDims N C P wf).sKept from
    (show (1 : Fin 2) ∈ ([1] : List (Fin 2)) by decide))]
  rfl

/-- WHERE AN UPDATE LANDS: update element `j = (p, c)` lands on table element `i = (n, d)` exactly when the row number
    `idx[p, 0]`, read signed, is `n` and the columns agree. -/
theorem resultIdx?_eq_some_iff (idx : IVec ⟨2, ![P, 1]⟩ w) (j : (⟨2, ![P, C]⟩ : Shape).Idx)
    (i : (⟨2, ![N, C]⟩ : Shape).Idx) :
    (rowDims N C P wf).resultIdx? j idx = some i
      ↔ (idx (ix2 (j 0) (0 : Fin 1))).toInt = ((i 0).val : Int) ∧ (j 1).val = (i 1).val := by
  have h0 := start_zero wf j idx
  have h1 := start_one wf j idx
  have w0 := window_zero wf j
  have w1 := window_one wf j
  have hi0 : (i 0).val < N := (i 0).isLt
  have hi1 : (i 1).val < C := (i 1).isLt
  have hj1 : (j 1).val < C := (j 1).isLt
  unfold ScatterDims.resultIdx?
  constructor
  · intro h
    split at h
    · rename_i hall
      have hf := Option.some.inj h
      have e0 := congrArg (fun f : (⟨2, ![N, C]⟩ : Shape).Idx => (f 0).val) hf
      have e1 := congrArg (fun f : (⟨2, ![N, C]⟩ : Shape).Idx => (f 1).val) hf
      have a0 := (hall 0).1
      dsimp only at e0 e1
      rw [h0, w0] at e0 a0
      rw [h1, w1] at e1
      constructor <;> omega
    · exact absurd h (by simp)
  · rintro ⟨ha, hb⟩
    have hall : ∀ a : Fin 2, 0 ≤ (rowDims N C P wf).start j idx a + ((rowDims N C P wf).window j a : Int) ∧
        (rowDims N C P wf).start j idx a + ((rowDims N C P wf).window j a : Int)
          < (((⟨2, ![N, C]⟩ : Shape).size a : Nat) : Int) := by
      refine Fin.forall_fin_two.2 ⟨?_, ?_⟩
      · rw [h0, w0, ha]
        show (0 : Int) ≤ ((i 0).val : Int) + ((0 : Nat) : Int) ∧ ((i 0).val : Int) + ((0 : Nat) : Int) < (N : Int)
        omega
      · rw [h1, w1]
        show (0 : Int) ≤ 0 + ((j 1).val : Int) ∧ 0 + ((j 1).val : Int) < (C : Int)
        omega
    rw [dif_pos hall]
    refine congrArg some (funext (Fin.forall_fin_two.2 ⟨Fin.ext ?_, Fin.ext ?_⟩))
    · show ((rowDims N C P wf).start j idx 0 + ((rowDims N C P wf).window j 0 : Int)).toNat = (i 0).val
      rw [h0, w0, ha]; omega
    · show ((rowDims N C P wf).start j idx 1 + ((rowDims N C P wf).window j 1 : Int)).toNat = (i 1).val
      rw [h1, w1]; omega

open scoped BigOperators

/-- THE SCATTER-ADD READ AT `(n, d)`, over the extended reals: the table's element plus the sum, over the updates' rows
    whose row number `idx[p, 0]` read signed is `n`, of the update's element in column `d`. The updates that land on
    `(n, d)` are in bijection with those rows: `(p, c) ↦ p`, back `p ↦ (p, d)`. -/
theorem hostScatterAdd_rows_apply (x : (⟨2, ![N, C]⟩ : Shape).Idx → EReal) (idx : IVec ⟨2, ![P, 1]⟩ w)
    (upd : (⟨2, ![P, C]⟩ : Shape).Idx → EReal) (i : (⟨2, ![N, C]⟩ : Shape).Idx) :
    Ideal.hostScatterAdd (rowDims N C P wf) x idx upd i
      = x i + ∑ p ∈ Finset.univ.filter (fun p : Fin P => (idx (ix2 p (0 : Fin 1))).toInt = ((i 0).val : Int)),
          upd (ix2 p (i 1)) := by
  unfold Ideal.hostScatterAdd
  congr 1
  refine Finset.sum_nbij' (fun j => (j 0 : Fin P)) (fun p => ix2 p (i 1)) ?_ ?_ ?_ ?_ ?_
  · intro j hj
    exact Finset.mem_filter.2 ⟨Finset.mem_univ _,
      ((resultIdx?_eq_some_iff wf idx j i).1 (Finset.mem_filter.1 hj).2).1⟩
  · intro p hp
    exact Finset.mem_filter.2 ⟨Finset.mem_univ _,
      (resultIdx?_eq_some_iff wf idx (ix2 p (i 1)) i).2 ⟨(Finset.mem_filter.1 hp).2, rfl⟩⟩
  · intro j hj
    have h1 : j 1 = i 1 := Fin.ext ((resultIdx?_eq_some_iff wf idx j i).1 (Finset.mem_filter.1 hj).2).2
    rw [← h1]
    exact (eq_ix2 j).symm
  · intro p _
    rfl
  · intro j hj
    have h1 : j 1 = i 1 := Fin.ext ((resultIdx?_eq_some_iff wf idx j i).1 (Finset.mem_filter.1 hj).2).2
    rw [← h1]
    exact congrArg upd (eq_ix2 j)

/-- The same for the host's accumulating scatter at the ideal values, whatever the float format. -/
theorem scatterAdd_rows_apply {φ : FTy} (x : FVec Ideal ⟨2, ![N, C]⟩ φ) (idx : IVec ⟨2, ![P, 1]⟩ w)
    (upd : FVec Ideal ⟨2, ![P, C]⟩ φ) (i : (⟨2, ![N, C]⟩ : Shape).Idx) :
    Host.scatterAdd (rowDims N C P wf) x idx upd i
      = x i + ∑ p ∈ Finset.univ.filter (fun p : Fin P => (idx (ix2 p (0 : Fin 1))).toInt = ((i 0).val : Int)),
          upd (ix2 p (i 1)) :=
  hostScatterAdd_rows_apply wf x idx upd i

end ScatterRows

end
-- ==== Proof.RefValue.lean ====
/-
  The reference program's result, for real inputs and domain ids in range, is the specification.

  The reference adds, per domain, a 1 for each row (a scatter-add of ones into a length-16 vector), the rows themselves
  and their squares (scatter-adds of whole rows into [16, 512] tables); a row whose id is in [0, 16) lands on its own
  domain's entry. It then forms count-at-least-1, mean, variance, inverse standard deviation, and gathers the row of
  each table that a row's id names (after wrapping a negative id, which an id in range never is): the gathers of mean,
  inverse standard deviation, gamma and beta at row p read row d p.
-/
import proofs.«416317_j21861383536853_3_alg».proof.Proof.Gen.ReferenceIdeal.Read
import proofs.«416317_j21861383536853_3_alg».proof.Proof.Spec
import proofs.«416317_j21861383536853_3_alg».proof.Proof.LibScatterRows
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.ValueIdx DomNorm

/-! ## A gather of whole rows of a table, read at an index

What `table[rows]` of a table `[N, C]` at a column of row numbers `[P, 1]` lowers to: the offset axis is the result's
second, the collapsed operand axis the table's first, which the one component of the start index names. Result element
`(p, c)` is the table's at row `idx[p, 0]`, read signed and clamped into `[0, N - 1]`, and column `c`. -/

section GatherRows

variable {α : Type} {N C P w : Nat}

/-- Those dimension numbers. -/
abbrev gatherRowDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![P, 1]⟩ ⟨2, ![P, C]⟩ [1] [0] [] [0] [] 1 ![1, C])

/-- On the table's row axis the slice starts at the row number, read signed and clamped. -/
theorem gstart_zero (j : (⟨2, ![P, C]⟩ : Shape).Idx) (idx : IVec ⟨2, ![P, 1]⟩ w) :
    (gatherRowDims N C P wf).start j idx 0 = min (idx (ix2 (j 0) (0 : Fin 1))).toInt.toNat (N - 1) := by
  unfold GatherDims.start
  rw [dif_pos (show (0 : Fin 2) ∈ (gatherRowDims N C P wf).startIndexMap from List.mem_singleton.mpr rfl)]
  have hsi : (gatherRowDims N C P wf).siIdx j ⟨List.idxOf (0 : Fin 2) (gatherRowDims N C P wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the slice starts at zero. -/
theorem gstart_one (j : (⟨2, ![P, C]⟩ : Shape).Idx) (idx : IVec ⟨2, ![P, 1]⟩ w) :
    (gatherRowDims N C P wf).start j idx 1 = 0 := by
  unfold GatherDims.start
  rw [dif_neg (show ¬ (1 : Fin 2) ∈ (gatherRowDims N C P wf).startIndexMap from
    (show ¬ (1 : Fin 2) ∈ ([0] : List (Fin 2)) by decide))]

/-- The row axis is collapsed: no offset along it. -/
theorem goff_zero (j : (⟨2, ![P, C]⟩ : Shape).Idx) : (gatherRowDims N C P wf).offCoord j 0 = 0 :=
  GatherDims.offCoord_eq_zero _ _ _ (fun h => ((GatherDims.mem_sKept _ _).mp h).1 (List.mem_singleton.mpr rfl))

/-- The column axis carries the result's own column. -/
theorem goff_one (j : (⟨2, ![P, C]⟩ : Shape).Idx) : (gatherRowDims N C P wf).offCoord j 1 = (j 1).val := by
  unfold GatherDims.offCoord
  rw [dif_pos (show (1 : Fin 2) ∈ (gatherRowDims N C P wf).sKept from
    (show (1 : Fin 2) ∈ ([1] : List (Fin 2)) by decide))]
  rfl

/-- THE GATHER READ AT `(p, c)`. -/
theorem gather_rows_apply (hN : 0 < N) (x : (⟨2, ![N, C]⟩ : Shape).Idx → α) (idx : IVec ⟨2, ![P, 1]⟩ w)
    (p : Fin P) (c : Fin C) :
    Host.gather (gatherRowDims N C P wf) x idx (ix2 p c)
      = x (ix2 (⟨min (idx (ix2 p (0 : Fin 1))).toInt.toNat (N - 1), by omega⟩ : Fin N) c) := by
  unfold Host.gather
  congr 1
  funext a
  refine Fin.ext ?_
  show (gatherRowDims N C P wf).start (ix2 p c) idx a + (gatherRowDims N C P wf).batchCoord (ix2 p c) a
    + (gatherRowDims N C P wf).offCoord (ix2 p c) a = _
  rw [GatherDims.batchCoord_eq_zero _ _ _ List.not_mem_nil]
  match a with
  | ⟨0, _⟩ =>
    exact (congrArg₂ (· + 0 + ·) (gstart_zero wf (ix2 p c) idx) (goff_zero wf (ix2 p c))).trans rfl
  | ⟨1, _⟩ =>
    exact (congrArg₂ (· + 0 + ·) (gstart_one wf (ix2 p c) idx) (goff_one wf (ix2 p c))).trans (by show 0 + 0 + c.val = c.val; omega)

end GatherRows

/-! ## A scatter of scalars into a vector, read at an index

Adding the entries of `upd : [P]` into a vector `x : [N]` at a column of positions `idx : [P, 1]` — what
`vec.at[rows].add(upd)` lowers to — has no update window axis; the operand's one axis is inserted and scattered. Update
`p` lands at position `idx[p, 0]`, read signed and not clamped; outside `[0, N)` it lands nowhere. -/

section ScatterVec

open scoped BigOperators

variable {N P w : Nat}

/-- Those dimension numbers. -/
abbrev scatterVecDims (N P : Nat) (wf : ScatterDims.WF ⟨1, ![N]⟩ ⟨2, ![P, 1]⟩ ⟨1, ![P]⟩ [] [0] [0] 1) :
    ScatterDims ⟨1, ![N]⟩ ⟨2, ![P, 1]⟩ ⟨1, ![P]⟩ where
  updateWindowDims := []
  insertedWindowDims := [0]
  scatterDimsToOperandDims := [0]
  indexVectorDim := 1
  wf := wf

variable (wf : ScatterDims.WF ⟨1, ![N]⟩ ⟨2, ![P, 1]⟩ ⟨1, ![P]⟩ [] [0] [0] 1)

/-- The window starts at the position `idx[p, 0]`, read signed. -/
theorem vstart_zero (j : (⟨1, ![P]⟩ : Shape).Idx) (idx : IVec ⟨2, ![P, 1]⟩ w) :
    (scatterVecDims N P wf).start j idx 0 = (idx (ix2 (j 0) (0 : Fin 1))).toInt := by
  unfold ScatterDims.start
  rw [dif_pos (show (0 : Fin 1) ∈ (scatterVecDims N P wf).scatterDimsToOperandDims from List.mem_singleton.mpr rfl)]
  have hsi : (scatterVecDims N P wf).siIdx j ⟨List.idxOf (0 : Fin 1) (scatterVecDims N P wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: the window has no extent along it. -/
theorem vwindow_zero (j : (⟨1, ![P]⟩ : Shape).Idx) : (scatterVecDims N P wf).window j 0 = 0 := by
  unfold ScatterDims.window
  rw [dif_neg (show ¬ (0 : Fin 1) ∈ (scatterVecDims N P wf).sKept from
    (show ¬ (0 : Fin 1) ∈ ([] : List (Fin 1)) by decide))]

/-- Update `j = (p)` lands on element `i = (n)` exactly when the position `idx[p, 0]`, read signed, is `n`. -/
theorem vresultIdx?_eq_some_iff (idx : IVec ⟨2, ![P, 1]⟩ w) (j : (⟨1, ![P]⟩ : Shape).Idx)
    (i : (⟨1, ![N]⟩ : Shape).Idx) :
    (scatterVecDims N P wf).resultIdx? j idx = some i ↔ (idx (ix2 (j 0) (0 : Fin 1))).toInt = ((i 0).val : Int) := by
  have h0 := vstart_zero wf j idx
  have w0 := vwindow_zero wf j
  have hi0 : (i 0).val < N := (i 0).isLt
  unfold ScatterDims.resultIdx?
  constructor
  · intro h
    split at h
    · rename_i hall
      have hf := Option.some.inj h
      have e0 := congrArg (fun f : (⟨1, ![N]⟩ : Shape).Idx => (f 0).val) hf
      have a0 := (hall 0).1
      dsimp only at e0
      rw [h0, w0] at e0 a0
      omega
    · exact absurd h (by simp)
  · intro ha
    have hall : ∀ a : Fin 1, 0 ≤ (scatterVecDims N P wf).start j idx a + ((scatterVecDims N P wf).window j a : Int) ∧
        (scatterVecDims N P wf).start j idx a + ((scatterVecDims N P wf).window j a : Int)
          < (((⟨1, ![N]⟩ : Shape).size a : Nat) : Int) := by
      intro a
      obtain rfl : a = 0 := Subsingleton.elim _ _
      rw [h0, w0, ha]
      show (0 : Int) ≤ ((i 0).val : Int) + ((0 : Nat) : Int) ∧ ((i 0).val : Int) + ((0 : Nat) : Int) < (N : Int)
      omega
    rw [dif_pos hall]
    refine congrArg some (funext fun a => ?_)
    obtain rfl : a = 0 := Subsingleton.elim _ _
    refine Fin.ext ?_
    show ((scatterVecDims N P wf).start j idx 0 + ((scatterVecDims N P wf).window j 0 : Int)).toNat = (i 0).val
    rw [h0, w0, ha]; omega

/-- THE SCATTER-ADD READ AT `n`, over the extended reals: the vector's element plus the sum of the updates whose
    position `idx[p, 0]`, read signed, is `n`. -/
theorem hostScatterAdd_vec_apply (x : (⟨1, ![N]⟩ : Shape).Idx → EReal) (idx : IVec ⟨2, ![P, 1]⟩ w)
    (upd : (⟨1, ![P]⟩ : Shape).Idx → EReal) (i : (⟨1, ![N]⟩ : Shape).Idx) :
    Ideal.hostScatterAdd (scatterVecDims N P wf) x idx upd i
      = x i + ∑ p ∈ Finset.univ.filter (fun p : Fin P => (idx (ix2 p (0 : Fin 1))).toInt = ((i 0).val : Int)),
          upd (ix1 p) := by
  unfold Ideal.hostScatterAdd
  congr 1
  refine Finset.sum_nbij' (fun j => (j 0 : Fin P)) (fun p => ix1 p) ?_ ?_ ?_ ?_ ?_
  · intro j hj
    exact Finset.mem_filter.2 ⟨Finset.mem_univ _,
      (vresultIdx?_eq_some_iff wf idx j i).1 (Finset.mem_filter.1 hj).2⟩
  · intro p hp
    exact Finset.mem_filter.2 ⟨Finset.mem_univ _,
      (vresultIdx?_eq_some_iff wf idx (ix1 p) i).2 (Finset.mem_filter.1 hp).2⟩
  · intro j _
    exact (eq_ix1 j).symm
  · intro p _
    rfl
  · intro j _
    exact congrArg upd (eq_ix1 j)

/-- The same for the host's accumulating scatter at the ideal values. -/
theorem scatterAdd_vec_apply {φ : FTy} (x : FVec Ideal ⟨1, ![N]⟩ φ) (idx : IVec ⟨2, ![P, 1]⟩ w)
    (upd : FVec Ideal ⟨1, ![P]⟩ φ) (i : (⟨1, ![N]⟩ : Shape).Idx) :
    Host.scatterAdd (scatterVecDims N P wf) x idx upd i
      = x i + ∑ p ∈ Finset.univ.filter (fun p : Fin P => (idx (ix2 p (0 : Fin 1))).toInt = ((i 0).val : Int)),
          upd (ix1 p) :=
  hostScatterAdd_vec_apply wf x idx upd i

end ScatterVec

/-! ## The reference's tables -/

section Tables

variable (X : FVec Ideal S65536x512 .f32) (D : IVec S65536 32) (G B : FVec Ideal S16x512 .f32)
variable (d : Fin 65536 → Fin 16) (x : Fin 65536 → Fin 512 → ℝ) (g b : Fin 16 → Fin 512 → ℝ)

/-- The column of ids at row p is the id of row p (the three copies of the column). -/
theorem ids_col2 (p : Fin 65536) : Read.val_main_v2 (F := Ideal) D (ix2 p (0 : Fin 1)) = D (ix1 p) := by
  rw [Read.val_main_v2_apply]
  exact congrArg D (funext fun a => match a with | ⟨0, _⟩ => rfl)
theorem ids_col8 (p : Fin 65536) : Read.val_main_v8 (F := Ideal) D (ix2 p (0 : Fin 1)) = D (ix1 p) := by
  rw [Read.val_main_v8_apply]
  exact congrArg D (funext fun a => match a with | ⟨0, _⟩ => rfl)
theorem ids_col12 (p : Fin 65536) : Read.val_main_v12 (F := Ideal) D (ix2 p (0 : Fin 1)) = D (ix1 p) := by
  rw [Read.val_main_v12_apply]
  exact congrArg D (funext fun a => match a with | ⟨0, _⟩ => rfl)

/-- An id in range, read signed, names domain k exactly when the row's domain is k. -/
theorem id_iff (hD : ∀ p : Fin 65536, (D (ix1 p)).toInt = ((d p).val : Int)) (p : Fin 65536) (k : Fin 16) :
    (D (ix1 p)).toInt = ((k.val : Nat) : Int) ↔ d p = k := by
  rw [hD p]
  constructor
  · intro h; exact Fin.ext (by omega)
  · intro h; rw [h]

theorem zero_vec (k : Fin 16) : Read.val_main_v1 (F := Ideal) (ix1 k) = 0 := by
  rw [Read.val_main_v1_apply, Read.val_main_cst_0_apply]; exact DomNorm.ofBits_zero
theorem one_vec (p : Fin 65536) : Read.val_main_v0 (F := Ideal) (ix1 p) = ((1 : ℝ) : EReal) := by
  rw [Read.val_main_v0_apply, Read.val_main_cst_apply]; exact DomNorm.ofBits_one
theorem zero_tab7 (k : Fin 16) (q : Fin 512) : Read.val_main_v7 (F := Ideal) (ix2 k q) = 0 := by
  rw [Read.val_main_v7_apply, Read.val_main_cst_2_apply]; exact DomNorm.ofBits_zero
theorem zero_tab11 (k : Fin 16) (q : Fin 512) : Read.val_main_v11 (F := Ideal) (ix2 k q) = 0 := by
  rw [Read.val_main_v11_apply, Read.val_main_cst_3_apply]; exact DomNorm.ofBits_zero

/-- The scatter of ones counts the rows of each domain. -/
theorem count_tab (hD : ∀ p : Fin 65536, (D (ix1 p)).toInt = ((d p).val : Int)) (k : Fin 16) :
    Read.val_main_v3 (F := Ideal) D (ix1 k) = ((cnt d k : ℝ) : EReal) := by
  have e := scatterAdd_vec_apply (N := 16) (P := 65536) (φ := .f32) Facts₀.scatter_S16_S65536x1_S65536_n_0_0_1_wf
    (Read.val_main_v1 (F := Ideal)) (Read.val_main_v2 (F := Ideal) D) (Read.val_main_v0 (F := Ideal)) (ix1 k)
  refine e.trans ?_
  rw [zero_vec, zero_add]
  rw [Finset.sum_congr (s₂ := Finset.univ.filter (fun p : Fin 65536 => d p = k))
    (Finset.filter_congr (fun p _ => by rw [ids_col2]; exact id_iff D d hD p k)) (fun p _ => one_vec p)]
  rw [DomNorm.coe_sum]
  unfold cnt
  rw [Finset.sum_filter]

end Tables

section Tables2

variable (X : FVec Ideal S65536x512 .f32) (D : IVec S65536 32) (G B : FVec Ideal S16x512 .f32)
variable (d : Fin 65536 → Fin 16) (x : Fin 65536 → Fin 512 → ℝ) (g b : Fin 16 → Fin 512 → ℝ)

/-- The count, or 1 for an empty domain. -/
theorem cntc_tab (hD : ∀ p : Fin 65536, (D (ix1 p)).toInt = ((d p).val : Int)) (k : Fin 16) :
    Read.val_main_v5 (F := Ideal) D (ix1 k) = ((cntc d k : ℝ) : EReal) := by
  rw [Read.val_main_v5_apply, count_tab D d hD k, Read.val_main_v4_apply, Read.val_main_cst_1_apply]
  show max ((cnt d k : ℝ) : EReal) (Ideal.ofBits .f32 0x3F800000#32) = _
  rw [DomNorm.ofBits_one, DomNorm.max_coe]
  rfl

/-- Where the broadcast divisor reads the count vector (the two copies of the broadcast). -/
theorem idx_div14 (k : Fin 16) (q : Fin 512) : Read.idx_main_v6 (Read.idx_main_v14 (ix2 k q)) = ix1 k := by
  funext a; match a with | ⟨0, _⟩ => rfl
theorem idx_div16 (k : Fin 16) (q : Fin 512) : Read.idx_main_v6 (Read.idx_main_v16 (ix2 k q)) = ix1 k := by
  funext a; match a with | ⟨0, _⟩ => rfl

/-- The divisor, broadcast along the columns (its two copies). -/
theorem div_tab14 (hD : ∀ p : Fin 65536, (D (ix1 p)).toInt = ((d p).val : Int)) (k : Fin 16) (q : Fin 512) :
    Read.val_main_v14 (F := Ideal) D (ix2 k q) = ((cntc d k : ℝ) : EReal) := by
  rw [Read.val_main_v14_apply, Read.val_main_v6_apply, idx_div14 k q]
  exact cntc_tab D d hD k
theorem div_tab16 (hD : ∀ p : Fin 65536, (D (ix1 p)).toInt = ((d p).val : Int)) (k : Fin 16) (q : Fin 512) :
    Read.val_main_v16 (F := Ideal) D (ix2 k q) = ((cntc d k : ℝ) : EReal) := by
  rw [Read.val_main_v16_apply, Read.val_main_v6_apply, idx_div16 k q]
  exact cntc_tab D d hD k

/-- The scatter of the rows sums each domain's rows, column by column. -/
theorem sum_tab (hX : ∀ (p : Fin 65536) (q : Fin 512), X (ix2 p q) = ((x p q : ℝ) : EReal))
    (hD : ∀ p : Fin 65536, (D (ix1 p)).toInt = ((d p).val : Int)) (k : Fin 16) (q : Fin 512) :
    Read.val_main_v9 (F := Ideal) X D (ix2 k q) = ((sm d x k q : ℝ) : EReal) := by
  have e := ScatterRows.scatterAdd_rows_apply (N := 16) (C := 512) (P := 65536) (φ := .f32)
    Facts₀.scatter_S16x512_S65536x1_S65536x512_1_0_0_1_wf
    (Read.val_main_v7 (F := Ideal)) (Read.val_main_v8 (F := Ideal) D) X (ix2 k q)
  refine e.trans ?_
  rw [zero_tab7, zero_add]
  refine (Finset.sum_congr (s₂ := Finset.univ.filter (fun p : Fin 65536 => d p = k))
    (g := fun p => ((x p q : ℝ) : EReal)) (Finset.filter_congr ?_) ?_).trans ?_
  · intro p _; rw [ids_col8]; exact id_iff D d hD p k
  · intro p _; exact hX p q
  · rw [DomNorm.coe_sum]
    unfold DomNorm.sm
    rw [Finset.sum_filter]

/-- The squares, entry by entry. -/
theorem sq_entry (hX : ∀ (p : Fin 65536) (q : Fin 512), X (ix2 p q) = ((x p q : ℝ) : EReal)) (p : Fin 65536) (q : Fin 512) :
    Read.val_main_v10 (F := Ideal) X (ix2 p q) = ((x p q * x p q : ℝ) : EReal) := by
  rw [Read.val_main_v10_apply, hX p q]
  exact (EReal.coe_mul _ _).symm

/-- The scatter of the squared rows sums each domain's squares. -/
theorem sumsq_tab (hX : ∀ (p : Fin 65536) (q : Fin 512), X (ix2 p q) = ((x p q : ℝ) : EReal))
    (hD : ∀ p : Fin 65536, (D (ix1 p)).toInt = ((d p).val : Int)) (k : Fin 16) (q : Fin 512) :
    Read.val_main_v13 (F := Ideal) X D (ix2 k q) = ((sq d x k q : ℝ) : EReal) := by
  have e := ScatterRows.scatterAdd_rows_apply (N := 16) (C := 512) (P := 65536) (φ := .f32)
    Facts₀.scatter_S16x512_S65536x1_S65536x512_1_0_0_1_wf
    (Read.val_main_v11 (F := Ideal)) (Read.val_main_v12 (F := Ideal) D) (Read.val_main_v10 (F := Ideal) X) (ix2 k q)
  refine e.trans ?_
  rw [zero_tab11, zero_add]
  refine (Finset.sum_congr (s₂ := Finset.univ.filter (fun p : Fin 65536 => d p = k))
    (g := fun p => ((x p q * x p q : ℝ) : EReal)) (Finset.filter_congr ?_) ?_).trans ?_
  · intro p _; rw [ids_col12]; exact id_iff D d hD p k
  · intro p _; exact sq_entry X x hX p q
  · rw [DomNorm.coe_sum]
    unfold DomNorm.sq
    rw [Finset.sum_filter]

/-- The table of means. -/
theorem mean_tab (hX : ∀ (p : Fin 65536) (q : Fin 512), X (ix2 p q) = ((x p q : ℝ) : EReal))
    (hD : ∀ p : Fin 65536, (D (ix1 p)).toInt = ((d p).val : Int)) (k : Fin 16) (q : Fin 512) :
    Read.val_main_v15 (F := Ideal) X D (ix2 k q) = ((mean d x k q : ℝ) : EReal) := by
  rw [Read.val_main_v15_apply, sum_tab X D d x hX hD k q, div_tab14 D d hD k q]
  exact DomNorm.div_coe_coe _ (DomNorm.cntc_ne d k)

/-- The table of variances plus the offset. -/
theorem vareps_tab (hX : ∀ (p : Fin 65536) (q : Fin 512), X (ix2 p q) = ((x p q : ℝ) : EReal))
    (hD : ∀ p : Fin 65536, (D (ix1 p)).toInt = ((d p).val : Int)) (k : Fin 16) (q : Fin 512) :
    Read.val_main_v21 (F := Ideal) X D (ix2 k q) = ((var d x k q + eps : ℝ) : EReal) := by
  rw [Read.val_main_v21_apply, Read.val_main_v19_apply, Read.val_main_v17_apply, Read.val_main_v18_apply,
    sumsq_tab X D d x hX hD k q, div_tab16 D d hD k q, mean_tab X D d x hX hD k q,
    Read.val_main_v20_apply, Read.val_main_cst_4_apply]
  show (Ideal.div ((sq d x k q : ℝ) : EReal) ((cntc d k : ℝ) : EReal) - ((mean d x k q : ℝ) : EReal) * ((mean d x k q : ℝ) : EReal))
    + Ideal.ofBits .f32 0x3727C5AC#32 = _
  rw [DomNorm.div_coe_coe _ (DomNorm.cntc_ne d k), DomNorm.ofBits_eps, ← EReal.coe_mul, ← EReal.coe_sub, ← EReal.coe_add]
  rfl

/-- The table of inverse standard deviations. -/
theorem inv_tab (hX : ∀ (p : Fin 65536) (q : Fin 512), X (ix2 p q) = ((x p q : ℝ) : EReal))
    (hD : ∀ p : Fin 65536, (D (ix1 p)).toInt = ((d p).val : Int)) (k : Fin 16) (q : Fin 512) :
    Read.val_main_v22 (F := Ideal) X D (ix2 k q) = ((inv d x eps k q : ℝ) : EReal) := by
  rw [Read.val_main_v22_apply, vareps_tab X D d x hX hD k q]
  exact DomNorm.rsqrt_coe_pos (DomNorm.var_add_pos d x eps DomNorm.eps_pos k q)

end Tables2

/-! ## The gathers and the result -/

section Result

variable (X : FVec Ideal S65536x512 .f32) (D : IVec S65536 32) (G B : FVec Ideal S16x512 .f32)
variable (d : Fin 65536 → Fin 16) (x : Fin 65536 → Fin 512 → ℝ) (g b : Fin 16 → Fin 512 → ℝ)

/-- A word that is not negative, read signed, is not wrapped: the select on "less than zero" keeps it. -/
theorem select_nonneg (v a : BitVec 32) (h : 0 ≤ v.toInt) : Scalar.select (IntOp.cmpi .slt v 0#32) a v = v := by
  have hc : IntOp.cmpi .slt v 0#32 = 0#1 := by
    refine eq_zero_of_ne_one (fun h1 => ?_)
    have h2 := IntOp.cmpi_slt.mp h1
    have h0 : (0#32 : BitVec 32).toInt = 0 := by decide
    omega
  rw [hc]
  exact select_zero _ _

/-- The wrapped id of row p is the id of row p. -/
theorem wrap_id (hD : ∀ p : Fin 65536, (D (ix1 p)).toInt = ((d p).val : Int)) (p : Fin 65536) :
    Read.val_main_v27 (F := Ideal) D (ix1 p) = D (ix1 p) := by
  rw [Read.val_main_v27_apply, Read.val_main_v24_apply, Read.val_main_v23_apply, Read.val_main_c_apply]
  exact select_nonneg _ _ (by rw [hD p]; omega)

theorem idx_col (p : Fin 65536) : Read.idx_main_v28 (ix2 p (0 : Fin 1)) = ix1 p := by
  funext a; match a with | ⟨0, _⟩ => rfl

/-- The column of wrapped ids at row p is the id of row p; the four gathers read four copies of that column. -/
theorem col28 (hD : ∀ p : Fin 65536, (D (ix1 p)).toInt = ((d p).val : Int)) (p : Fin 65536) :
    Read.val_main_v28 (F := Ideal) D (ix2 p (0 : Fin 1)) = D (ix1 p) := by
  rw [Read.val_main_v28_apply, idx_col p]
  exact wrap_id D d hD p
theorem col36 (hD : ∀ p : Fin 65536, (D (ix1 p)).toInt = ((d p).val : Int)) (p : Fin 65536) :
    Read.val_main_v36 (F := Ideal) D (ix2 p (0 : Fin 1)) = D (ix1 p) := col28 D d hD p
theorem col44 (hD : ∀ p : Fin 65536, (D (ix1 p)).toInt = ((d p).val : Int)) (p : Fin 65536) :
    Read.val_main_v44 (F := Ideal) D (ix2 p (0 : Fin 1)) = D (ix1 p) := col28 D d hD p
theorem col52 (hD : ∀ p : Fin 65536, (D (ix1 p)).toInt = ((d p).val : Int)) (p : Fin 65536) :
    Read.val_main_v52 (F := Ideal) D (ix2 p (0 : Fin 1)) = D (ix1 p) := col28 D d hD p

/-- A gather of a table's rows at a column whose entry at row p is the id of row p reads row d p. -/
theorem gather_tab (hD : ∀ p : Fin 65536, (D (ix1 p)).toInt = ((d p).val : Int))
    (T : FVec Ideal S16x512 .f32) (I : IVec S65536x1 32) (p : Fin 65536) (q : Fin 512)
    (hI : I (ix2 p (0 : Fin 1)) = D (ix1 p)) :
    Host.gather gather_S16x512_S65536x1_S65536x512_1_0_n_n_0_1_1512 T I (ix2 p q) = T (ix2 (d p) q) := by
  have e := gather_rows_apply (N := 16) (C := 512) (P := 65536)
    Facts₀.gather_S16x512_S65536x1_S65536x512_1_0_n_n_0_1_1512_wf (by decide : 0 < 16) T I p q
  refine e.trans ?_
  exact congrArg (fun r : Fin 16 => T (ix2 r q)) (Fin.ext (by
    show min (I (ix2 p (0 : Fin 1))).toInt.toNat (16 - 1) = (d p).val
    rw [hI, hD p]
    have := (d p).isLt
    omega))

end Result

variable (X : FVec Ideal S65536x512 .f32) (D : IVec S65536 32) (G B : FVec Ideal S16x512 .f32)
variable (d : Fin 65536 → Fin 16) (x : Fin 65536 → Fin 512 → ℝ) (g b : Fin 16 → Fin 512 → ℝ)

/-- The reference's result at row p, column q. -/
theorem ref_value
    (hX : ∀ (p : Fin 65536) (q : Fin 512), X (ix2 p q) = ((x p q : ℝ) : EReal))
    (hD : ∀ p : Fin 65536, (D (ix1 p)).toInt = ((d p).val : Int))
    (hG : ∀ (k : Fin 16) (q : Fin 512), G (ix2 k q) = ((g k q : ℝ) : EReal))
    (hB : ∀ (k : Fin 16) (q : Fin 512), B (ix2 k q) = ((b k q : ℝ) : EReal))
    (p : Fin 65536) (q : Fin 512) :
    Cert.ReferenceIdeal.Read.val_main_v54 (F := Ideal) X D G B (ix2 p q) = ((y d x g b eps p q : ℝ) : EReal) := by
  -- the four gathered entries: row d p of the means, the inverse standard deviations, gamma and beta
  have h29 : Read.val_main_v29 (F := Ideal) X D (ix2 p q) = ((mean d x (d p) q : ℝ) : EReal) :=
    (gather_tab D d hD (Read.val_main_v15 (F := Ideal) X D) (Read.val_main_v28 (F := Ideal) D) p q (col28 D d hD p)).trans
      (mean_tab X D d x hX hD (d p) q)
  have h37 : Read.val_main_v37 (F := Ideal) X D (ix2 p q) = ((inv d x eps (d p) q : ℝ) : EReal) :=
    (gather_tab D d hD (Read.val_main_v22 (F := Ideal) X D) (Read.val_main_v36 (F := Ideal) D) p q (col36 D d hD p)).trans
      (inv_tab X D d x hX hD (d p) q)
  have h45 : Read.val_main_v45 (F := Ideal) D G (ix2 p q) = ((g (d p) q : ℝ) : EReal) :=
    (gather_tab D d hD G (Read.val_main_v44 (F := Ideal) D) p q (col44 D d hD p)).trans (hG (d p) q)
  have h53 : Read.val_main_v53 (F := Ideal) D B (ix2 p q) = ((b (d p) q : ℝ) : EReal) :=
    (gather_tab D d hD B (Read.val_main_v52 (F := Ideal) D) p q (col52 D d hD p)).trans (hB (d p) q)
  rw [Read.val_main_v54_apply, Read.val_main_v46_apply, Read.val_main_v38_apply, Read.val_main_v30_apply,
    h29, h37, h45, h53, hX p q]
  show (((x p q : ℝ) : EReal) - ((mean d x (d p) q : ℝ) : EReal)) * ((inv d x eps (d p) q : ℝ) : EReal)
    * ((g (d p) q : ℝ) : EReal) + ((b (d p) q : ℝ) : EReal) = _
  rw [← EReal.coe_sub, ← EReal.coe_mul, ← EReal.coe_mul, ← EReal.coe_add]
  rfl

end Cert.ReferenceIdeal.RefValue

end
-- ==== Proof.PreFacts.lean ====
/-
  What the precondition says of the inputs, element by element.

  The precondition is a conjunction of five "every entry of this float array is finite" tests and one "every domain id
  is at least 0 and below 16" test, each an and-reduction of a pointwise comparison. Read at the extended reals, an
  entry whose absolute value is below +infinity is a real number; a 32-bit id that is signed-at-least 0 and
  signed-below 16 is one of 0 … 15.
-/
import proofs.«416317_j21861383536853_3_alg».proof.Pre_finite_inputs
import proofs.«416317_j21861383536853_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic Idealize.ShloMosaic.ValueIdx

/-- The rank-0 shape has one index. -/
local instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value is strictly below +∞ is a real number. -/
theorem real_of_abs_lt_top (x : EReal) (h : max x (-x) < ⊤) : x = ((x.toReal : ℝ) : EReal) := by
  induction x using EReal.rec with
  | bot => simp at h
  | coe r => rfl
  | top => simp at h

/-- The strict comparison against the +∞ pattern, read back. -/
theorem real_of_cmp (x : EReal) (h : Ideal.cmp .olt (max x (-x)) (Ideal.ofBits .f32 0x7F800000#32) = 1#1) :
    x = ((x.toReal : ℝ) : EReal) := by
  rw [ofBits_inf] at h
  unfold Ideal.cmp at h
  rw [StableHlo.Predicate.ofBool_eq_one_iff] at h
  exact real_of_abs_lt_top x (of_decide_eq_true h)

/-- A 32-bit word that is signed-at-least 0 and signed-below 16 is one of 0 … 15. -/
theorem id_range (w : BitVec 32) (h0 : IntOp.cmpi .sge w 0#32 = 1#1) (h16 : IntOp.cmpi .slt w 16#32 = 1#1) :
    ∃ d : Fin 16, w.toInt = ((d.val : Nat) : Int) := by
  rw [IntOp.cmpi_sge] at h0
  rw [IntOp.cmpi_slt] at h16
  have e0 : (0#32 : BitVec 32).toInt = 0 := by decide
  have e16 : (16#32 : BitVec 32).toInt = 16 := by decide
  rw [e0] at h0
  rw [e16] at h16
  exact ⟨⟨w.toInt.toNat, by omega⟩, (Int.toNat_of_nonneg h0).symm⟩

open Cert.Pre_finite_inputs.Facts

/-- The precondition, split into its and-reductions and each read at an element: the three float arrays the programs
    use compare strictly below the +∞ pattern in absolute value everywhere, and every id passes both signed tests. -/
theorem reduced [Cert.Pre_finite_inputs.Facts] (X : FVec Ideal S65536x512 .f32) (D : IVec S65536 32) (T : FVec Ideal S1 .f32)
    (M : FVec Ideal S1x512 .f32) (G B : FVec Ideal S16x512 .f32)
    (h : Cert.Pre_finite_inputs.fn (F := Ideal) X D T M G B = fun _ => 1#1) :
    (∀ i, Ideal.cmp .olt (max (X i) (-(X i))) (Ideal.ofBits .f32 0x7F800000#32) = 1#1)
    ∧ (∀ i, Ideal.cmp .olt (max (G i) (-(G i))) (Ideal.ofBits .f32 0x7F800000#32) = 1#1)
    ∧ (∀ i, Ideal.cmp .olt (max (B i) (-(B i))) (Ideal.ofBits .f32 0x7F800000#32) = 1#1)
    ∧ (∀ i, IntOp.cmpi .sge (D i) 0#32 = 1#1 ∧ IntOp.cmpi .slt (D i) 16#32 = 1#1) := by
  have e := congrFun h ix0
  unfold Cert.Pre_finite_inputs.fn Cert.Pre_finite_inputs.fn_part1 at e
  dsimp only at e
  obtain ⟨e5, hD⟩ := IntOp.andi_eq_one.1 e
  obtain ⟨e4, hB⟩ := IntOp.andi_eq_one.1 e5
  obtain ⟨e3, hG⟩ := IntOp.andi_eq_one.1 e4
  obtain ⟨e2, hM⟩ := IntOp.andi_eq_one.1 e3
  obtain ⟨hX, hT⟩ := IntOp.andi_eq_one.1 e2
  refine ⟨fun i => ?_, fun i => ?_, fun i => ?_, fun i => ?_⟩
  · exact Host.reduce_andi_all _ _ _ _ _ hX i
  · exact Host.reduce_andi_all _ _ _ _ _ hG i
  · exact Host.reduce_andi_all _ _ _ _ _ hB i
  · exact IntOp.andi_eq_one.1 (Host.reduce_andi_all _ _ _ _ _ hD i)

/-- Under the precondition the float inputs used by the programs are arrays of reals and every domain id is one of
    the 16 domains. -/
theorem real_inputs [Cert.Pre_finite_inputs.Facts] (X : FVec Ideal S65536x512 .f32) (D : IVec S65536 32) (T : FVec Ideal S1 .f32)
    (M : FVec Ideal S1x512 .f32) (G B : FVec Ideal S16x512 .f32)
    (h : Cert.Pre_finite_inputs.fn (F := Ideal) X D T M G B = fun _ => 1#1) :
    (∃ x : Fin 65536 → Fin 512 → ℝ, ∀ (p : Fin 65536) (q : Fin 512), X (ix2 p q) = ((x p q : ℝ) : EReal))
    ∧ (∃ d : Fin 65536 → Fin 16, ∀ p : Fin 65536, (D (ix1 p)).toInt = ((d p).val : Int))
    ∧ (∃ g : Fin 16 → Fin 512 → ℝ, ∀ (k : Fin 16) (q : Fin 512), G (ix2 k q) = ((g k q : ℝ) : EReal))
    ∧ (∃ b : Fin 16 → Fin 512 → ℝ, ∀ (k : Fin 16) (q : Fin 512), B (ix2 k q) = ((b k q : ℝ) : EReal)) := by
  obtain ⟨hX, hG, hB, hD⟩ := reduced X D T M G B h
  refine ⟨⟨fun p q => (X (ix2 p q)).toReal, fun p q => real_of_cmp _ (hX _)⟩, ?_,
    ⟨fun k q => (G (ix2 k q)).toReal, fun k q => real_of_cmp _ (hG _)⟩,
    ⟨fun k q => (B (ix2 k q)).toReal, fun k q => real_of_cmp _ (hB _)⟩⟩
  choose d hd using fun p : Fin 65536 => id_range (D (ix1 p)) (hD (ix1 p)).1 (hD (ix1 p)).2
  exact ⟨d, hd⟩

end Cert.Pre_finite_inputs.Decode

end
-- ==== Proof.lean ====
/-
  The certificate: per-domain batch normalisation in two passes against its one-pass reference.

  Both programs normalise every row of x : [65536, 512] by the mean and the biased variance of the rows that share its
  domain id (16 domains), then scale by gamma and shift by beta of that domain. The reference gathers a row's
  statistics from per-domain scatter-added sums; the kernel builds the same sums tile by tile with a 0/1 selection
  matrix on the matrix unit, in two groups of 16 tiles added on the host, folds mean, inverse standard deviation, gamma
  and beta into a multiplicative and an additive table, and applies them to each tile with the same selection matrix.
  Over the reals these are one function: the sums agree by re-grouping, and (x - mean) · inv · gamma + beta
  = x · (inv · gamma) + (beta - mean · inv · gamma). The precondition makes the float inputs real and puts every domain
  id in [0, 16); the variance is non-negative (Cauchy-Schwarz), so the inverse square root of variance + eps is a real
  and the distributive step is sound on the extended reals.

  The three frames are the generated ones (the reference's is its generated run with the result dropped); the ideal
  pass's four rewrites each dropped a narrowing to bf16 followed by the widening back, the identity at the ideal
  instance.
-/
import proofs.«416317_j21861383536853_3_alg».proof.Defs
import proofs.«416317_j21861383536853_3_alg».proof.Proof.Gen.Kernel
import proofs.«416317_j21861383536853_3_alg».proof.Proof.Gen.Kernel.Skeleton
import proofs.«416317_j21861383536853_3_alg».proof.Proof.Gen.Kernel.Launch
import proofs.«416317_j21861383536853_3_alg».proof.Proof.Gen.Kernel.Points
import proofs.«416317_j21861383536853_3_alg».proof.Proof.Gen.Kernel.Frame
import proofs.«416317_j21861383536853_3_alg».proof.Proof.Gen.KernelIdeal
import proofs.«416317_j21861383536853_3_alg».proof.Proof.Gen.KernelIdeal.Skeleton
import proofs.«416317_j21861383536853_3_alg».proof.Proof.Gen.KernelIdeal.Launch
import proofs.«416317_j21861383536853_3_alg».proof.Proof.Gen.KernelIdeal.Points
import proofs.«416317_j21861383536853_3_alg».proof.Proof.Gen.KernelIdeal.Frame
import proofs.«416317_j21861383536853_3_alg».proof.Proof.Gen.ReferenceIdeal
import proofs.«416317_j21861383536853_3_alg».proof.Proof.Gen.Pre_finite_inputs
import proofs.«416317_j21861383536853_3_alg».proof.Proof.Gen.ReferenceIdeal.Run
import proofs.«416317_j21861383536853_3_alg».proof.Proof.Gen.ReferenceIdeal.Read
import proofs.«416317_j21861383536853_3_alg».proof.Proof.KRun
import proofs.«416317_j21861383536853_3_alg».proof.Proof.KValue
import proofs.«416317_j21861383536853_3_alg».proof.Proof.RefValue
import proofs.«416317_j21861383536853_3_alg».proof.Proof.PreFacts
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Each of the four rewrites replaced "narrow to bf16, widen back" by its operand: the identity at the ideal
    instance, the rounding through bf16 at the word level. -/
theorem preserves : Cert.preserves_Kernel_KernelIdeal :=
  ⟨IdealRules.truncf_extf.statement _ _ _, IdealRules.truncf_extf.statement _ _ _,
   IdealRules.truncf_extf.statement _ _ _, IdealRules.truncf_extf.statement _ _ _⟩

/-- From memories that agree on the arguments both programs end with the specification's array: the kernel's result
    array by the run of its two regions, the reference's by its run read stage by stage. -/
theorem algebraic : Cert.algebraic_KernelIdeal_ReferenceIdeal := by
  intro m ρ m' ρ' hpre hagree
  refine ⟨fun c => Cert.KernelIdeal.Gen.W6 m ρ c (Proc.devRef .tc Cert.KernelIdeal.main_v21),
    Cert.KernelIdeal.RunNamed.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨⟨x, hx⟩, ⟨d, hd⟩, ⟨g, hg⟩, ⟨b, hb⟩⟩ := Cert.Pre_finite_inputs.Decode.real_inputs _ _ _ _ _ _ (hpre c)
  rw [Cert.ReferenceIdeal.Read.val_main_v54_eq, (hagree c).1, (hagree c).2.1, (hagree c).2.2.2.2.1, (hagree c).2.2.2.2.2]
  funext i
  rw [eq_ix2 i]
  exact (Cert.ReferenceIdeal.RefValue.ref_value _ _ _ _ d x g b hx hd hg hb (i 0) (i 1)).trans
    (Cert.KernelIdeal.KValue.result_eq m ρ d x g b c hx hd hg hb (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
